-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S524288 : Shape := ⟨1, ![524288]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S524288 : S_.BroadcastsInDim S524288 (![] : Fin 0 → Fin S524288.rank)
  reducesTo_S524288_S_d0 : S524288.ReducesTo [0] S_

variable [Facts]

def fn_part1 {F : FTy → Type} [FloatOps F] (main_arg3 : IVec S524288 32) (main_v15 : IVec S_ 1) (main_c_5 : IVec S_ 32) : IVec S_ 1 :=
  let main_v16 : IVec S524288 32 := broadcastInDim S524288 ![] bcast_S_S524288 main_c_5
  let main_v17 : IVec S524288 1 := cmpi .sge main_arg3 main_v16
  let main_c_6 : IVec S_ 32 := constantI S_ 32 4096#32
  let main_v18 : IVec S524288 32 := broadcastInDim S524288 ![] bcast_S_S524288 main_c_6
  let main_v19 : IVec S524288 1 := cmpi .slt main_arg3 main_v18
  let main_v20 : IVec S524288 1 := andi main_v17 main_v19
  let main_c_7 : IVec S_ 1 := constantI S_ 1 1#1
  let main_v21 : IVec S_ 1 := (fun x v => Host.reduce IntOp.andi x v reducesTo_S524288_S_d0 h_S_) main_v20 main_c_7
  let main_v22 : IVec S_ 1 := andi main_v15 main_v21
  main_v22

def fn {F : FTy → Type} [FloatOps F] (main_arg0 : FVec F S256x4096 .f32) (main_arg1 : FVec F S524288 .f32) (main_arg2 : IVec S524288 32) (main_arg3 : IVec S524288 32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S524288 .f32 := Host.absf main_arg1
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_c_2 : IVec S_ 32 := constantI S_ 32 0#32
  let main_v9 : IVec S524288 32 := broadcastInDim S524288 ![] bcast_S_S524288 main_c_2
  let main_v10 : IVec S524288 1 := cmpi .sge main_arg2 main_v9
  let main_c_3 : IVec S_ 32 := constantI S_ 32 4096#32
  let main_v11 : IVec S524288 32 := broadcastInDim S524288 ![] bcast_S_S524288 main_c_3
  let main_v12 : IVec S524288 1 := cmpi .slt main_arg2 main_v11
  let main_v13 : IVec S524288 1 := andi main_v10 main_v12
  let main_c_4 : IVec S_ 1 := constantI S_ 1 1#1
  let main_v14 : IVec S_ 1 := (fun x v => Host.reduce IntOp.andi x v reducesTo_S524288_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S256x4096 : Shape := ⟨2, ![256, 4096]⟩
abbrev S524288 : Shape := ⟨1, ![524288]⟩
abbrev S_ : Shape := ⟨0, ![]⟩
abbrev S4096x4096 : Shape := ⟨2, ![4096, 4096]⟩
abbrev S524288x1 : Shape := ⟨2, ![524288, 1]⟩
abbrev S524288x2 : Shape := ⟨2, ![524288, 2]⟩
abbrev S4096x512 : Shape := ⟨2, ![4096, 512]⟩
abbrev S256x512 : Shape := ⟨2, ![256, 512]⟩

abbrev nBuf : Space → Nat
  | .hbm => 27
  | .vmem => 5
  | .smem => 0
  | _ => 0

abbrev bufTy : (tb : Table) → Fin (tcTables nBuf tb) → BufTy
  | .hbm, ⟨0, _⟩ => ⟨S256x4096, .f32⟩
  | .hbm, ⟨1, _⟩ => ⟨S524288, .f32⟩
  | .hbm, ⟨2, _⟩ => ⟨S524288, .i32⟩
  | .hbm, ⟨3, _⟩ => ⟨S524288, .i32⟩
  | .hbm, ⟨4, _⟩ => ⟨S_, .f32⟩
  | .hbm, ⟨5, _⟩ => ⟨S4096x4096, .f32⟩
  | .hbm, ⟨6, _⟩ => ⟨S_, .i32⟩
  | .hbm, ⟨7, _⟩ => ⟨S524288, .i32⟩
  | .hbm, ⟨8, _⟩ => ⟨S524288, .i1⟩
  | .hbm, ⟨9, _⟩ => ⟨S_, .i32⟩
  | .hbm, ⟨10, _⟩ => ⟨S524288, .i32⟩
  | .hbm, ⟨11, _⟩ => ⟨S524288, .i32⟩
  | .hbm, ⟨12, _⟩ => ⟨S524288, .i32⟩
  | .hbm, ⟨13, _⟩ => ⟨S_, .i32⟩
  | .hbm, ⟨14, _⟩ => ⟨S524288, .i32⟩
  | .hbm, ⟨15, _⟩ => ⟨S524288, .i1⟩
  | .hbm, ⟨16, _⟩ => ⟨S_, .i32⟩
  | .hbm, ⟨17, _⟩ => ⟨S524288, .i32⟩
  | .hbm, ⟨18, _⟩ => ⟨S524288, .i32⟩
  | .hbm, ⟨19, _⟩ => ⟨S524288, .i32⟩
  | .hbm, ⟨20, _⟩ => ⟨S524288x1, .i32⟩
  | .hbm, ⟨21, _⟩ => ⟨S524288x1, .i32⟩
  | .hbm, ⟨22, _⟩ => ⟨S524288x2, .i32⟩
  | .hbm, ⟨23, _⟩ => ⟨S4096x4096, .f32⟩
  | .hbm, ⟨24, _⟩ => ⟨S256x4096, .bf16⟩
  | .hbm, ⟨25, _⟩ => ⟨S4096x4096, .bf16⟩
  | .hbm, ⟨26, _⟩ => ⟨S256x4096, .f32⟩
  | .local _ .vmem, ⟨0, _⟩ => ⟨S256x4096, .bf16⟩
  | .local _ .vmem, ⟨1, _⟩ => ⟨S4096x512, .bf16⟩
  | .local _ .vmem, ⟨2, _⟩ => ⟨S4096x512, .bf16⟩
  | .local _ .vmem, ⟨3, _⟩ => ⟨S256x512, .f32⟩
  | .local _ .vmem, ⟨4, _⟩ => ⟨S256x512, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S4096x4096 : S_.BroadcastsInDim S4096x4096 (![] : Fin 0 → Fin S4096x4096.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S256x512_S256x512_0_0 : ∀ a, (![0, 0] : Fin 2 → Nat) a + S256x512.size a ≤ S256x512.size a
  h_S256x512 : 0 < S256x512.numel
  scatter_S4096x4096_S524288x2_S524288_n_01_01_1_wf : ScatterDims.WF S4096x4096 S524288x2 S524288 [] [0, 1] [0, 1] 1
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x4096.size a
  hwx0_2 : ∀ i : grid0.Coords, EltTy.bits .f32 = 32 ∨ (Rect.block (s := S256x4096) S256x512.size (cc0_transform_2 i) (hinb0_2 i)).WholeWords (EltTy.packing .f32)

variable [Facts₀]

def scatter_S4096x4096_S524288x2_S524288_n_01_01_1 : ScatterDims S4096x4096 S524288x2 S524288 where
  updateWindowDims := []
  insertedWindowDims := [0, 1]
  scatterDimsToOperandDims := [0, 1]
  indexVectorDim := 1
  wf := scatter_S4096x4096_S524288x2_S524288_n_01_01_1_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_v15) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x4096 : Shape := ⟨2, ![256, 4096]⟩
abbrev S524288 : Shape := ⟨1, ![524288]⟩
abbrev S_ : Shape := ⟨0, ![]⟩
abbrev S524288x1 : Shape := ⟨2, ![524288, 1]⟩
abbrev S256x524288 : Shape := ⟨2, ![256, 524288]⟩
abbrev S1x524288 : Shape := ⟨2, ![1, 524288]⟩
abbrev S524288x256 : Shape := ⟨2, ![524288, 256]⟩
abbrev S4096x256 : Shape := ⟨2, ![4096, 256]⟩

abbrev nBuf : Space → Nat
  | .hbm => 30
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S524288, .f32⟩
  | .hbm, ⟨2, _⟩ => ⟨S524288, .i32⟩
  | .hbm, ⟨3, _⟩ => ⟨S524288, .i32⟩
  | .hbm, ⟨4, _⟩ => ⟨S_, .i32⟩
  | .hbm, ⟨5, _⟩ => ⟨S524288, .i32⟩
  | .hbm, ⟨6, _⟩ => ⟨S524288, .i1⟩
  | .hbm, ⟨7, _⟩ => ⟨S_, .i32⟩
  | .hbm, ⟨8, _⟩ => ⟨S524288, .i32⟩
  | .hbm, ⟨9, _⟩ => ⟨S524288, .i32⟩
  | .hbm, ⟨10, _⟩ => ⟨S524288, .i32⟩
  | .hbm, ⟨11, _⟩ => ⟨S524288x1, .i32⟩
  | .hbm, ⟨12, _⟩ => ⟨S256x524288, .f32⟩
  | .hbm, ⟨13, _⟩ => ⟨S1x524288, .f32⟩
  | .hbm, ⟨14, _⟩ => ⟨S256x524288, .f32⟩
  | .hbm, ⟨15, _⟩ => ⟨S256x524288, .f32⟩
  | .hbm, ⟨16, _⟩ => ⟨S524288x256, .f32⟩
  | .hbm, ⟨17, _⟩ => ⟨S_, .f32⟩
  | .hbm, ⟨18, _⟩ => ⟨S4096x256, .f32⟩
  | .hbm, ⟨19, _⟩ => ⟨S524288x1, .i32⟩
  | .hbm, ⟨20, _⟩ => ⟨S4096x256, .f32⟩
  | .hbm, ⟨21, _⟩ => ⟨S256x4096, .f32⟩
  | .hbm, ⟨22, _⟩ => ⟨S256x4096, .f32⟩
  | .hbm, ⟨23, _⟩ => ⟨S256x4096, .f32⟩
  | .hbm, ⟨24, _⟩ => ⟨S_, .f32⟩
  | .hbm, ⟨25, _⟩ => ⟨S256x4096, .f32⟩
  | .hbm, ⟨26, _⟩ => ⟨S256x4096, .f32⟩
  | .hbm, ⟨27, _⟩ => ⟨S_, .f32⟩
  | .hbm, ⟨28, _⟩ => ⟨S256x4096, .f32⟩
  | .hbm, ⟨29, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S524288_S1x524288_1 : S524288.BroadcastsInDim S1x524288 (![1] : Fin 1 → Fin S1x524288.rank)
  bcast_S1x524288_S256x524288_0_1 : S1x524288.BroadcastsInDim S256x524288 (![0, 1] : Fin 2 → Fin S256x524288.rank)
  transposes_S256x524288_S524288x256_1_0 : S256x524288.Transposes [1, 0] S524288x256
  bcast_S_S4096x256 : S_.BroadcastsInDim S4096x256 (![] : Fin 0 → Fin S4096x256.rank)
  transposes_S4096x256_S256x4096_1_0 : S4096x256.Transposes [1, 0] S256x4096
  bcast_S_S256x4096 : S_.BroadcastsInDim S256x4096 (![] : Fin 0 → Fin S256x4096.rank)
  gather_S256x4096_S524288x1_S256x524288_0_1_n_n_1_1_2561_wf : GatherDims.WF S256x4096 S524288x1 S256x524288 [0] [1] [] [1] [] 1 ![256, 1]
  scatter_S4096x256_S524288x1_S524288x256_1_0_0_1_wf : ScatterDims.WF S4096x256 S524288x1 S524288x256 [1] [0] [0] 1

variable [Facts₀]

def gather_S256x4096_S524288x1_S256x524288_0_1_n_n_1_1_2561 : GatherDims S256x4096 S524288x1 S256x524288 where
  offsetDims := [0]
  collapsedSliceDims := [1]
  operandBatchingDims := []
  startIndicesBatchingDims := []
  startIndexMap := [1]
  indexVectorDim := 1
  sliceSizes := ![256, 1]
  wf := gather_S256x4096_S524288x1_S256x524288_0_1_n_n_1_1_2561_wf
def scatter_S4096x256_S524288x1_S524288x256_1_0_0_1 : ScatterDims S4096x256 S524288x1 S524288x256 where
  updateWindowDims := [1]
  insertedWindowDims := [0]
  scatterDimsToOperandDims := [0]
  indexVectorDim := 1
  wf := scatter_S4096x256_S524288x1_S524288x256_1_0_0_1_wf

class Facts : Prop extends Facts₀ where

variable [Facts]
-- ==== Proof.Layer.lean ====
import Idealize.ShloMosaic.Lib.ValueIdx
import Idealize.ShloMosaic.PureOps.Ideal
import Mathlib.Algebra.BigOperators.Group.Finset.Basic

/-!
# One message-passing layer over a sparse weight matrix

The layer has 4096 input nodes, 4096 output nodes and 524288 edges. Edge `e` carries a weight `v e`, starts at
the input node named by the word `col e` and ends at the output node named by the word `row e`. For a batch of
256 activation vectors `x`, the output at batch element `b` and output node `i` is

  `σ (∑ over the edges e that end at i, x b (start of e) * v e)`,   `σ z = 1 / (1 + exp (-z))`.

A word names the node whose number is the word's signed value; `node` reads it, taking the nearest node for a
word outside `[0, 4096)` so that it is a total function. `InRange` says that every word of an index array lies
in `[0, 4096)`, where `node` is exact (`toInt_eq_node`), and `Finite` that every entry of an array of extended
reals is a real number.
-/

open scoped BigOperators

noncomputable section

namespace Cert.Layer

open Idealize.ShloMosaic Idealize.ShloMosaic.ValueIdx

/-- The batch of activations, and the result: 256 rows of 4096 nodes. -/
abbrev SAct : Shape := ⟨2, ![256, 4096]⟩
/-- One entry per edge. -/
abbrev SEdge : Shape := ⟨1, ![524288]⟩

/-- The node a word names: its signed value, brought into `[0, 4095]`. -/
def node (w : BitVec 32) : Fin 4096 := ⟨min w.toInt.toNat (4096 - 1), by omega⟩

/-- For a word in `[0, 4096)` the node's number is the word's signed value. -/
theorem toInt_eq_node {w : BitVec 32} (h0 : 0 ≤ w.toInt) (h1 : w.toInt < 4096) : w.toInt = ((node w).val : ℤ) := by
  unfold node
  show w.toInt = ((min w.toInt.toNat (4096 - 1) : ℕ) : ℤ)
  omega

/-- Every word of an index array names a node: it lies in `[0, 4096)`. -/
def InRange (w : IVec SEdge 32) : Prop := ∀ e : Fin 524288, 0 ≤ (w (ix1 e)).toInt ∧ (w (ix1 e)).toInt < 4096

/-- Every entry is a real number. -/
def Finite {s : Shape} (x : s.Idx → EReal) : Prop := ∀ i, ∃ r : ℝ, x i = r

/-- What reaches output node `i` for batch element `b`: over the edges that end at `i`, the activation at the
    edge's start times the edge's weight, accumulated from zero. -/
def drive (x : SAct.Idx → EReal) (v : SEdge.Idx → EReal) (row col : IVec SEdge 32) (b : Fin 256) (i : Fin 4096) : EReal :=
  0 + ∑ e ∈ Finset.univ.filter (fun e : Fin 524288 => node (row (ix1 e)) = i),
        x (ix2 b (node (col (ix1 e)))) * v (ix1 e)

/-- The layer: the logistic function of what reaches each output node. -/
def out (x : SAct.Idx → EReal) (v : SEdge.Idx → EReal) (row col : IVec SEdge 32) : SAct.Idx → EReal :=
  fun i => Ideal.logistic (drive x v row col (i 0) (i 1))

end Cert.Layer

end
-- ==== Proof.Domain.lean ====
import proofs.«417876_j38010460570162_1_alg».proof.Pre_finite_inputs
import proofs.«417876_j38010460570162_1_alg».proof.Proof.Layer
import Idealize.ShloMosaic.Lib.ReduceAll
import Idealize.ShloMosaic.Lib.Affine
import Idealize.ShloMosaic.Lib.ValueIdx

/-!
# What the precondition says

The precondition is one bit: the conjunction of four "for all entries" tests, each a reduction by `and` over an
array of bits — `|x| < +∞` at every activation, `|v| < +∞` at every weight, and `0 ≤ w ∧ w < 4096` at every
end word and at every start word. When the bit is 1 each reduction is 1, so each test holds at every entry:
the activations and the weights are real numbers (an extended real whose absolute value is below `+∞` is neither
infinity) and every index word names a node.
-/

noncomputable section

namespace Cert.Domain

open Idealize.ShloMosaic Idealize.ShloMosaic.ValueIdx Cert.Pre_finite_inputs Cert.Layer

/-- An extended real whose absolute value compares below the f32 word of `+∞` is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = r := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

instance : Subsingleton S_.Idx := ⟨fun a b => funext fun d => d.elim0⟩

variable [Facts]

/-- The precondition's four facts. -/
theorem of_pre (x : FVec Ideal S256x4096 .f32) (v : FVec Ideal S524288 .f32) (row col : IVec S524288 32)
    (h : fn (F := Ideal) x v row col = fun _ => 1#1) :
    Finite x ∧ Finite v ∧ InRange row ∧ InRange col := by
  have h0 := congrFun h ix0
  dsimp only [fn, fn_part1] at h0
  change IntOp.andi (IntOp.andi (IntOp.andi _ _) _) _ = 1#1 at h0
  rw [IntOp.andi_eq_one, IntOp.andi_eq_one, IntOp.andi_eq_one] at h0
  obtain ⟨⟨⟨hx, hv⟩, hr⟩, hc⟩ := h0
  refine ⟨fun i => ?_, fun i => ?_, fun e => ?_, fun e => ?_⟩
  · exact real_of_abs_lt_inf (x i) (Host.reduce_andi_all _ _ _ _ _ hx i)
  · exact real_of_abs_lt_inf (v i) (Host.reduce_andi_all _ _ _ _ _ hv i)
  · have := Host.reduce_andi_all _ _ _ _ _ hr (ix1 e)
    change IntOp.andi (IntOp.cmpi .sge (row (ix1 e)) 0#32) (IntOp.cmpi .slt (row (ix1 e)) 4096#32) = 1#1 at this
    rw [IntOp.andi_eq_one, IntOp.cmpi_sge, IntOp.cmpi_slt] at this
    exact ⟨by simpa using this.1, by simpa using this.2⟩
  · have := Host.reduce_andi_all _ _ _ _ _ hc (ix1 e)
    change IntOp.andi (IntOp.cmpi .sge (col (ix1 e)) 0#32) (IntOp.cmpi .slt (col (ix1 e)) 4096#32) = 1#1 at this
    rw [IntOp.andi_eq_one, IntOp.cmpi_sge, IntOp.cmpi_slt] at this
    exact ⟨by simpa using this.1, by simpa using this.2⟩

end Cert.Domain

end
-- ==== Proof.LibIndexWords.lean ====
import Idealize.ShloMosaic.PureOps.Vector
import Idealize.ShloMosaic.Lib.StableHlo.Predicate

/-!
# Index words: 32-bit words whose signed value is a small natural number

An index into a table of `N` rows travels as a 32-bit two's-complement word `x`. When its signed value
`x.toInt` is already a row number `k < N`, the arithmetic a program wraps around it does nothing:

* clipping into a range that holds it, `minimum(hi, maximum(lo, x))`, gives `x` back (`clip_of_mem`);
* the wrap of a negative index, `select(x < 0, x + n, x)`, takes the second branch (`wrap_of_nonneg`);
* the clamp of a start index into the table, `min x.toInt.toNat (N - 1)`, is `k` (`clamp_of_eq`,
  `clamp_fin_of_eq`).

Each is stated at one element, for the operations on words (`IntOp.maxsi`, `IntOp.minsi`, `IntOp.cmpi`,
`IntOp.addi`, `Scalar.select`) that the elementwise operations on arrays apply at every index; the
array forms follow by function extensionality (`clip_vec_of_mem`, `wrap_vec_of_nonneg`). The last
section moves between a word and its value: the word of a small natural number has that value, and a
word is determined by its signed value.
-/

namespace Cert.LibIndexWords

open Idealize.ShloMosaic

/-! ## The signed order, read on the signed values -/

/-- `a` is not strictly below `b` in the signed order exactly when `b.toInt ≤ a.toInt`. -/
theorem slt_eq_false_of_le {a b : BitVec 32} (h : b.toInt ≤ a.toInt) : a.slt b = false := by
  simp only [BitVec.slt, decide_eq_false_iff_not, not_lt]
  exact h

/-! ## Clipping -/

/-- Clipping into a range leaves a word of that range alone. With `lo ≤ x ≤ hi` as signed values,
    `maximum(lo, x)` keeps `x` (it would take `lo` only if `x` were strictly below it) and then
    `minimum(hi, x)` keeps `x` (it would take `hi` only if `hi` were strictly below `x`). -/
theorem clip_of_mem (x lo hi : BitVec 32) (hlo : lo.toInt ≤ x.toInt) (hhi : x.toInt ≤ hi.toInt) :
    IntOp.minsi hi (IntOp.maxsi lo x) = x := by
  have hmax : IntOp.maxsi lo x = x := by
    unfold IntOp.maxsi
    rw [slt_eq_false_of_le hlo]
    rfl
  rw [hmax]
  unfold IntOp.minsi
  rw [slt_eq_false_of_le hhi]
  rfl

/-- The same with the range given by a row count: a word whose value is a row number `k < N` is left
    alone by the clip to `[0, N - 1]`, whatever word `hi` carries the value `N - 1`. -/
theorem clip_of_fin {N : Nat} (x hi : BitVec 32) (k : Fin N) (hx : x.toInt = (k.val : ℤ))
    (hhi : hi.toInt = ((N - 1 : ℕ) : ℤ)) : IntOp.minsi hi (IntOp.maxsi 0#32 x) = x := by
  have h0 : (0#32 : BitVec 32).toInt = 0 := by decide
  have hk := k.isLt
  exact clip_of_mem x 0#32 hi (by rw [h0, hx]; omega) (by rw [hx, hhi]; omega)

/-- Clipping a whole array of words, each within the bounds at its own position, gives the array back. -/
theorem clip_vec_of_mem {s : Shape} (x lo hi : IVec s 32)
    (h : ∀ i, (lo i).toInt ≤ (x i).toInt ∧ (x i).toInt ≤ (hi i).toInt) : minsi hi (maxsi lo x) = x :=
  funext fun i => clip_of_mem (x i) (lo i) (hi i) (h i).1 (h i).2

/-! ## Wrapping a negative index -/

/-- The wrap `select(x < 0, x + n, x)` of a word that is not negative is the word: the signed comparison
    with zero answers the bit `0`, and the selection on bit `0` takes its second branch. -/
theorem wrap_of_nonneg (x n : BitVec 32) (hx : 0 ≤ x.toInt) :
    Scalar.select (IntOp.cmpi .slt x 0#32) (IntOp.addi x n) x = x := by
  have h0 : (0#32 : BitVec 32).toInt = 0 := by decide
  have hlt : x.slt 0#32 = false := slt_eq_false_of_le (by rw [h0]; exact hx)
  unfold IntOp.cmpi Scalar.select
  rw [hlt]
  rfl

/-- Wrapping a whole array of words, none of them negative, gives the array back; `zero` is any array
    that holds the word `0` everywhere (a broadcast constant) and `n` any array of offsets. -/
theorem wrap_vec_of_nonneg {s : Shape} (x zero n : IVec s 32) (hz : ∀ i, zero i = 0#32)
    (hx : ∀ i, 0 ≤ (x i).toInt) : select (cmpi .slt x zero) (addi x n) x = x :=
  funext fun i => by
    show Scalar.select (IntOp.cmpi .slt (x i) (zero i)) (IntOp.addi (x i) (n i)) (x i) = x i
    rw [hz i]
    exact wrap_of_nonneg (x i) (n i) (hx i)

/-! ## Clamping a start index into a table -/

/-- A start index whose signed value is a row number `k` of a table of `N` rows is clamped to `k`: read
    as a natural number it is `k`, and `k ≤ N - 1`. -/
theorem clamp_of_eq (x : BitVec 32) (N : Nat) (k : Fin N) (hx : x.toInt = (k.val : ℤ)) :
    min x.toInt.toNat (N - 1) = k.val := by
  have hk := k.isLt
  rw [hx, Int.toNat_natCast]
  exact Nat.min_eq_left (by omega)

/-- The clamped start index, as a row of the table, is `k` (whatever the proof that it is a row). -/
theorem clamp_fin_of_eq (x : BitVec 32) (N : Nat) (k : Fin N) (hx : x.toInt = (k.val : ℤ))
    (h : min x.toInt.toNat (N - 1) < N) : (⟨min x.toInt.toNat (N - 1), h⟩ : Fin N) = k :=
  Fin.ext (clamp_of_eq x N k hx)

/-! ## Between a word and its value -/

/-- The word of a natural number below `2 ^ 31` has that number as its signed value
    (`StableHlo.Predicate.toInt_ofNat_small`). -/
theorem toInt_ofNat_of_lt (n : ℕ) (hn : n < 2 ^ 31) : (BitVec.ofNat 32 n).toInt = (n : ℤ) :=
  StableHlo.Predicate.toInt_ofNat_small n hn

/-- The word of a row number of a table of at most `2 ^ 31` rows has that row number as its signed value. -/
theorem toInt_ofNat_fin {N : Nat} (hN : N ≤ 2 ^ 31) (k : Fin N) : (BitVec.ofNat 32 k.val).toInt = (k.val : ℤ) :=
  toInt_ofNat_of_lt k.val (lt_of_lt_of_le k.isLt hN)

/-- At ten thousand rows. -/
theorem toInt_ofNat_fin10000 (k : Fin 10000) : (BitVec.ofNat 32 k.val).toInt = (k.val : ℤ) :=
  toInt_ofNat_fin (by decide) k

/-- A word is determined by its signed value. -/
theorem eq_of_toInt_eq {x y : BitVec 32} (h : x.toInt = y.toInt) : x = y := BitVec.eq_of_toInt_eq h

/-- A word whose signed value is a natural number below `2 ^ 31` is the word of that number. -/
theorem eq_ofNat_of_toInt_eq {x : BitVec 32} {n : ℕ} (hn : n < 2 ^ 31) (hx : x.toInt = (n : ℤ)) :
    x = BitVec.ofNat 32 n :=
  eq_of_toInt_eq (by rw [hx, toInt_ofNat_of_lt n hn])

/-- A word whose signed value lies in `[0, N)` names a row of a table of `N` rows: its value read as a
    natural number is below `N`, and is the signed value again. -/
theorem toInt_eq_fin_of_mem {x : BitVec 32} {N : Nat} (h0 : 0 ≤ x.toInt) (hN : x.toInt < (N : ℤ)) :
    ∃ k : Fin N, x.toInt = (k.val : ℤ) :=
  ⟨⟨x.toInt.toNat, by omega⟩, by simp only [Int.toNat_of_nonneg h0]⟩

end Cert.LibIndexWords
-- ==== Proof.LibScatterGatherRows.lean ====
import Idealize.ShloMosaic.Lib.ValueIdx
import Idealize.ShloMosaic.PureOps.Contract
import Mathlib.Algebra.BigOperators.Group.Finset.Basic
import Mathlib.Algebra.BigOperators.Group.Finset.Piecewise

/-!
# Row gather and row scatter-add, read at an index

Two array operations over a table of `N` rows, indexed by a column of `n` integer words:

* the ROW GATHER `table[idx]`: result row `e` is the table's row named by the `e`-th index word. The
  word is read as a SIGNED integer and CLAMPED into `[0, N − 1]` (a negative word reads row `0`, a word
  past the end reads the last row); the column is kept. `gather_rows` states this for an `N × D` table at
  one element `(e, k)`, for any element type.
* the ROW SCATTER-ADD (a segment sum, `table.at[idx].add(updates)`) over the extended reals: result
  element `(v, k)` is the operand's element plus the sum of the update elements `(e, k)` over exactly
  those update rows `e` whose index word, read SIGNED and NOT clamped, EQUALS `v`. An update row whose
  index is negative or at least `N` lands nowhere and is dropped. `resultIdx_rows` says where one update
  element lands; `hostScatterAdd_rows` / `scatterAdd_rows` give the sum for an `N × D` operand, and
  `resultIdx_vec` / `hostScatterAdd_vec` / `scatterAdd_vec` the same for a vector of `N` elements
  (updates a vector of `n` elements).

Every statement is for arbitrary extents `N`, `D`, `n` and any record of dimension numbers whose lists
are the ones named by the hypotheses (one collapsed / inserted row axis `0`, the index vector on axis
`1` of the `n × 1` index column, the column axis `1` an offset / window axis), so each applies to a
concrete record with `rfl` for every list.
-/

open scoped BigOperators

namespace Cert.LibScatterGatherRows

open Idealize.ShloMosaic Idealize.ShloMosaic.ValueIdx

/-! ## The row gather -/

/-- THE ROW GATHER AT `(e, k)`: the table at row "index word `e`, read signed and clamped into
    `[0, N − 1]`", column `k`. On the row axis (collapsed, start-indexed) the operand coordinate is the
    clamped start; on the column axis (an offset axis, not start-indexed) it is the result's column. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k) = x (ix2 ⟨min (idx (ix2 e 0)).toInt.toNat (N - 1), by omega⟩ k) := by
  -- the collapsed row axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the start index of result element (e, k) is read at (e, 0) of the index column
    have hsi : ∀ c, (GatherDims.siIdx ⟨[1], [0], [], sb, [0], 1, ss, wf⟩ (ix2 e k) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl
  | ⟨1, _⟩ =>
    -- the column axis: start 0, no batching, offset coordinate the result's column
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

/-- The row gather of a table of extended reals (any float format's ideal values), at `(e, k)`. -/
theorem gather_rows_ideal {φ : FTy} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : FVec Ideal ⟨2, ![N, D]⟩ φ) (idx : IVec ⟨2, ![n, 1]⟩ w) (e : Fin n) (k : Fin D) (hN : 0 < N) :
    (Host.gather d x idx : FVec Ideal ⟨2, ![n, D]⟩ φ) (ix2 e k)
      = x (ix2 ⟨min (idx (ix2 e 0)).toInt.toNat (N - 1), by omega⟩ k) :=
  gather_rows d hoff hcoll hob hsim hivd x idx e k hN

/-! ## The row scatter-add over an `N × D` operand -/

/-- WHERE AN UPDATE ELEMENT LANDS: update element `(e, k')` lands on operand element `(v, k)` exactly when
    the `e`-th index word, read signed, is `v`, and the columns agree. (On the row axis the landing
    coordinate is the unclamped start plus window coordinate 0; on the column axis it is start 0 plus the
    update's column; a landing point outside the operand is no point at all.) -/
theorem resultIdx_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (k' : Fin D) (v : Fin N) (k : Fin D) :
    d.resultIdx? (ix2 e k') idx = some (ix2 v k) ↔ (idx (ix2 e 0)).toInt = (v.val : ℤ) ∧ k' = k := by
  obtain ⟨uw, iw, sd, ivd, wf⟩ := d
  simp only at huw hiw hsd hivd
  subst huw hiw hsd hivd
  -- the start and the window coordinate on each of the two operand axes
  have hs0 : ScatterDims.start ⟨[1], [0], [0], 1, wf⟩ (ix2 e k') idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 2) ∈ ([0] : List (Fin 2)) by decide) ha
  have hs1 : ScatterDims.start ⟨[1], [0], [0], 1, wf⟩ (ix2 e k') idx 1 = 0 := by
    unfold ScatterDims.start
    split
    · next ha => exact absurd ha (show (1 : Fin 2) ∉ ([0] : List (Fin 2)) by decide)
    · rfl
  have hw0 : ScatterDims.window ⟨[1], [0], [0], 1, wf⟩ (ix2 e k') 0 = 0 := by
    unfold ScatterDims.window
    split
    · next ha => exact absurd ha (show (0 : Fin 2) ∉ ([1] : List (Fin 2)) by decide)
    · rfl
  have hw1 : ScatterDims.window ⟨[1], [0], [0], 1, wf⟩ (ix2 e k') 1 = k'.val := by
    unfold ScatterDims.window
    split
    · rfl
    · next ha => exact absurd (show (1 : Fin 2) ∈ ([1] : List (Fin 2)) by decide) ha
  unfold ScatterDims.resultIdx?
  split
  · next h =>
    -- the landing point is inside the operand: compare it with (v, k) coordinate by coordinate
    have h0 := h 0
    rw [hs0, hw0] at h0
    constructor
    · intro hf
      have hf' := Option.some.inj hf
      have e0 : (ScatterDims.start ⟨[1], [0], [0], 1, wf⟩ (ix2 e k') idx 0
          + (ScatterDims.window ⟨[1], [0], [0], 1, wf⟩ (ix2 e k') 0 : ℕ)).toNat = v.val :=
        congrArg (fun f : (⟨2, ![N, D]⟩ : Shape).Idx => (f 0).val) hf'
      have e1 : (ScatterDims.start ⟨[1], [0], [0], 1, wf⟩ (ix2 e k') idx 1
          + (ScatterDims.window ⟨[1], [0], [0], 1, wf⟩ (ix2 e k') 1 : ℕ)).toNat = k.val :=
        congrArg (fun f : (⟨2, ![N, D]⟩ : Shape).Idx => (f 1).val) hf'
      rw [hs0, hw0] at e0
      rw [hs1, hw1] at e1
      exact ⟨by omega, Fin.ext (by omega)⟩
    · rintro ⟨hv, rfl⟩
      congr 1
      funext a
      apply Fin.ext
      match a with
      | ⟨0, _⟩ =>
        show (ScatterDims.start ⟨[1], [0], [0], 1, wf⟩ (ix2 e k') idx 0
          + (ScatterDims.window ⟨[1], [0], [0], 1, wf⟩ (ix2 e k') 0 : ℕ)).toNat = v.val
        rw [hs0, hw0]; omega
      | ⟨1, _⟩ =>
        show (ScatterDims.start ⟨[1], [0], [0], 1, wf⟩ (ix2 e k') idx 1
          + (ScatterDims.window ⟨[1], [0], [0], 1, wf⟩ (ix2 e k') 1 : ℕ)).toNat = k'.val
        rw [hs1, hw1]; omega
  · next h =>
    -- the landing point is outside the operand: then the index word is no row of it
    constructor
    · intro hf; exact absurd hf (by simp)
    · rintro ⟨hv, rfl⟩
      exfalso
      apply h
      intro a
      match a with
      | ⟨0, _⟩ =>
        show 0 ≤ ScatterDims.start ⟨[1], [0], [0], 1, wf⟩ (ix2 e k') idx 0
            + (ScatterDims.window ⟨[1], [0], [0], 1, wf⟩ (ix2 e k') 0 : ℕ)
          ∧ ScatterDims.start ⟨[1], [0], [0], 1, wf⟩ (ix2 e k') idx 0
            + (ScatterDims.window ⟨[1], [0], [0], 1, wf⟩ (ix2 e k') 0 : ℕ) < (N : ℤ)
        rw [hs0, hw0]
        have := v.isLt
        omega
      | ⟨1, _⟩ =>
        show 0 ≤ ScatterDims.start ⟨[1], [0], [0], 1, wf⟩ (ix2 e k') idx 1
            + (ScatterDims.window ⟨[1], [0], [0], 1, wf⟩ (ix2 e k') 1 : ℕ)
          ∧ ScatterDims.start ⟨[1], [0], [0], 1, wf⟩ (ix2 e k') idx 1
            + (ScatterDims.window ⟨[1], [0], [0], 1, wf⟩ (ix2 e k') 1 : ℕ) < (D : ℤ)
        rw [hs1, hw1]
        have := k'.isLt
        omega

/-- THE ROW SCATTER-ADD AT `(v, k)`: the operand's element plus the sum, over the update rows `e` whose
    index word read signed equals `v`, of the update element `(e, k)`. The sum over all update elements
    that land on `(v, k)` splits into rows and columns; in each row only column `k` can land there. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (v : Fin N) (k : Fin D) :
    Ideal.hostScatterAdd d x idx upd (ix2 v k)
      = x (ix2 v k)
        + ∑ e ∈ Finset.univ.filter (fun e : Fin n => (idx (ix2 e 0)).toInt = (v.val : ℤ)), upd (ix2 e k) := by
  classical
  unfold Ideal.hostScatterAdd
  congr 1
  rw [Finset.sum_filter, sum_idx2, Finset.sum_filter]
  refine Finset.sum_congr rfl (fun e _ => ?_)
  simp only [resultIdx_rows d huw hiw hsd hivd]
  by_cases hP : (idx (ix2 e 0)).toInt = (v.val : ℤ)
  · simp [hP]
  · simp [hP]

/-- The same for the scatter-add operation at the ideal instance (any float format). -/
theorem scatterAdd_rows {φ : FTy} {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![n, 1]⟩ w)
    (upd : FVec Ideal ⟨2, ![n, D]⟩ φ) (v : Fin N) (k : Fin D) :
    Host.scatterAdd (F := Ideal) d x idx upd (ix2 v k)
      = x (ix2 v k)
        + ∑ e ∈ Finset.univ.filter (fun e : Fin n => (idx (ix2 e 0)).toInt = (v.val : ℤ)), upd (ix2 e k) := by
  unfold Host.scatterAdd
  rw [Ideal.hostScatterAdd_def]
  exact hostScatterAdd_rows d huw hiw hsd hivd x idx upd v k

/-! ## The scatter-add over a vector of `N` elements -/

/-- A rank-1 index set is its one coordinate range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ e : Fin n, f (ix1 e) :=
  (Equiv.sum_comp (idxEquiv1 (n := n)).symm f).symm

/-- WHERE AN UPDATE ELEMENT LANDS, for a vector: update element `e` lands on operand element `v` exactly when
    the `e`-th index word, read signed, is `v`. -/
theorem resultIdx_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e 0)).toInt = (v.val : ℤ) := by
  obtain ⟨uw, iw, sd, ivd, wf⟩ := d
  simp only at huw hiw hsd hivd
  subst huw hiw hsd hivd
  have hs0 : ScatterDims.start ⟨[], [0], [0], 1, wf⟩ (ix1 e) idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 1) ∈ ([0] : List (Fin 1)) by decide) ha
  have hw0 : ScatterDims.window ⟨[], [0], [0], 1, wf⟩ (ix1 e) 0 = 0 := by
    unfold ScatterDims.window
    split
    · next ha => exact absurd ha (show (0 : Fin 1) ∉ ([] : List (Fin 1)) by decide)
    · rfl
  unfold ScatterDims.resultIdx?
  split
  · next h =>
    have h0 := h 0
    rw [hs0, hw0] at h0
    constructor
    · intro hf
      have hf' := Option.some.inj hf
      have e0 : (ScatterDims.start ⟨[], [0], [0], 1, wf⟩ (ix1 e) idx 0
          + (ScatterDims.window ⟨[], [0], [0], 1, wf⟩ (ix1 e) 0 : ℕ)).toNat = v.val :=
        congrArg (fun f : (⟨1, ![N]⟩ : Shape).Idx => (f 0).val) hf'
      rw [hs0, hw0] at e0
      omega
    · intro hv
      congr 1
      funext a
      apply Fin.ext
      match a with
      | ⟨0, _⟩ =>
        show (ScatterDims.start ⟨[], [0], [0], 1, wf⟩ (ix1 e) idx 0
          + (ScatterDims.window ⟨[], [0], [0], 1, wf⟩ (ix1 e) 0 : ℕ)).toNat = v.val
        rw [hs0, hw0]; omega
  · next h =>
    constructor
    · intro hf; exact absurd hf (by simp)
    · intro hv
      exfalso
      apply h
      intro a
      match a with
      | ⟨0, _⟩ =>
        show 0 ≤ ScatterDims.start ⟨[], [0], [0], 1, wf⟩ (ix1 e) idx 0
            + (ScatterDims.window ⟨[], [0], [0], 1, wf⟩ (ix1 e) 0 : ℕ)
          ∧ ScatterDims.start ⟨[], [0], [0], 1, wf⟩ (ix1 e) idx 0
            + (ScatterDims.window ⟨[], [0], [0], 1, wf⟩ (ix1 e) 0 : ℕ) < (N : ℤ)
        rw [hs0, hw0]
        have := v.isLt
        omega

/-- THE VECTOR SCATTER-ADD AT `v` (a segment sum): the operand's element plus the sum of the update elements
    `e` whose index word read signed equals `v`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (v : Fin N) :
    Ideal.hostScatterAdd d x idx upd (ix1 v)
      = x (ix1 v)
        + ∑ e ∈ Finset.univ.filter (fun e : Fin n => (idx (ix2 e 0)).toInt = (v.val : ℤ)), upd (ix1 e) := by
  classical
  unfold Ideal.hostScatterAdd
  congr 1
  rw [Finset.sum_filter, sum_idx1, Finset.sum_filter]
  refine Finset.sum_congr rfl (fun e _ => ?_)
  simp only [resultIdx_vec d huw hiw hsd hivd]

/-- The same for the scatter-add operation at the ideal instance (any float format). -/
theorem scatterAdd_vec {φ : FTy} {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w)
    (upd : FVec Ideal ⟨1, ![n]⟩ φ) (v : Fin N) :
    Host.scatterAdd (F := Ideal) d x idx upd (ix1 v)
      = x (ix1 v)
        + ∑ e ∈ Finset.univ.filter (fun e : Fin n => (idx (ix2 e 0)).toInt = (v.val : ℤ)), upd (ix1 e) := by
  unfold Host.scatterAdd
  rw [Ideal.hostScatterAdd_def]
  exact hostScatterAdd_vec d huw hiw hsd hivd x idx upd v

end Cert.LibScatterGatherRows
-- ==== Proof.LibScatterGatherCols.lean ====
import Idealize.ShloMosaic.Lib.ValueIdx
import Idealize.ShloMosaic.PureOps.Contract
import Mathlib.Algebra.BigOperators.Group.Finset.Basic
import Mathlib.Algebra.BigOperators.Group.Finset.Piecewise

/-!
# Column gather and column scatter-add, read at an index

Two array operations over a CHANNEL-MAJOR table of `D` rows (channels) and `N` columns (entries),
indexed by a column of `n` integer words:

* the COLUMN GATHER `table[:, idx]`: result column `e` is the table's column named by the `e`-th index
  word. The word is read as a SIGNED integer and CLAMPED into `[0, N − 1]` (a negative word reads column
  `0`, a word past the end reads the last column); the row (channel) is kept. `gather_cols` states this
  for a `D × N` table at one element `(k, e)`, for any element type, and `gather_cols_ideal` for a table
  of extended reals.
* the COLUMN SCATTER-ADD (a segment sum along the second axis, `table.at[:, idx].add(updates)`) over the
  extended reals: result element `(k, v)` is the operand's element plus the sum of the update elements
  `(k, e)` over exactly those update columns `e` whose index word, read SIGNED and NOT clamped, EQUALS
  `v`. An update column whose index is negative or at least `N` lands nowhere and is dropped.
  `resultIdx_cols` says where one update element lands; `hostScatterAdd_cols` / `scatterAdd_cols` give
  the sum for a `D × N` operand with `D × n` updates.

Every statement is for arbitrary extents `D`, `N`, `n` and any record of dimension numbers whose lists
are the ones named by the hypotheses (one collapsed / inserted column axis `1`, the index vector on axis
`1` of the `n × 1` index column, the row axis `0` an offset / window axis), so each applies to a
concrete record with `rfl` for every list.
-/

open scoped BigOperators

namespace Cert.LibScatterGatherCols

open Idealize.ShloMosaic Idealize.ShloMosaic.ValueIdx

/-! ## The column gather -/

/-- THE COLUMN GATHER AT `(k, e)`: the table at row `k`, column "index word `e`, read signed and clamped
    into `[0, N − 1]`". On the row axis (an offset axis, not start-indexed) the operand coordinate is the
    result's row; on the column axis (collapsed, start-indexed) it is the clamped start. -/
theorem gather_cols {α : Type} {D N n w : Nat} (d : GatherDims ⟨2, ![D, N]⟩ ⟨2, ![n, 1]⟩ ⟨2, ![D, n]⟩)
    (hoff : d.offsetDims = [0]) (hcoll : d.collapsedSliceDims = [1]) (hob : d.operandBatchingDims = [])
    (hsim : d.startIndexMap = [1]) (hivd : d.indexVectorDim = 1)
    (x : (⟨2, ![D, N]⟩ : Shape).Idx → α) (idx : IVec ⟨2, ![n, 1]⟩ w) (k : Fin D) (e : Fin n) (hN : 0 < N) :
    Host.gather d x idx (ix2 k e) = x (ix2 k ⟨min (idx (ix2 e 0)).toInt.toNat (N - 1), by omega⟩) := by
  -- the collapsed column axis has slice size 1, so the clamp's upper end is N − 1
  have hsl : d.sliceSizes 1 = 1 := d.slice_collapsed 1 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the row axis: start 0, no batching, offset coordinate the result's row
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (0 : Fin 2) ∉ ([1] : List (Fin 2)) by decide)
    · split
      · rw [Nat.add_zero, Nat.zero_add]
        rfl
      · next ha => exact absurd (show (0 : Fin 2) ∈ ([0] : List (Fin 2)) by decide) ha
  | ⟨1, _⟩ =>
    -- the start index of result element (k, e) is read at (e, 0) of the index column
    have hsi : ∀ c, (GatherDims.siIdx ⟨[0], [1], [], sb, [1], 1, ss, wf⟩ (ix2 k e) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 1) + 0 + 0 = min (idx (ix2 e 0)).toInt.toNat (N - 1)
    rw [hsi, hsl]
    rfl

/-- The column gather of a table of extended reals (any float format's ideal values), at `(k, e)`. -/
theorem gather_cols_ideal {φ : FTy} {D N n w : Nat} (d : GatherDims ⟨2, ![D, N]⟩ ⟨2, ![n, 1]⟩ ⟨2, ![D, n]⟩)
    (hoff : d.offsetDims = [0]) (hcoll : d.collapsedSliceDims = [1]) (hob : d.operandBatchingDims = [])
    (hsim : d.startIndexMap = [1]) (hivd : d.indexVectorDim = 1)
    (x : FVec Ideal ⟨2, ![D, N]⟩ φ) (idx : IVec ⟨2, ![n, 1]⟩ w) (k : Fin D) (e : Fin n) (hN : 0 < N) :
    (Host.gather d x idx : FVec Ideal ⟨2, ![D, n]⟩ φ) (ix2 k e)
      = x (ix2 k ⟨min (idx (ix2 e 0)).toInt.toNat (N - 1), by omega⟩) :=
  gather_cols d hoff hcoll hob hsim hivd x idx k e hN

/-! ## The column scatter-add over a `D × N` operand -/

/-- WHERE AN UPDATE ELEMENT LANDS: update element `(k', e)` lands on operand element `(k, v)` exactly when
    the `e`-th index word, read signed, is `v`, and the rows agree. (On the row axis the landing
    coordinate is start 0 plus the update's row; on the column axis it is the unclamped start plus window
    coordinate 0; a landing point outside the operand is no point at all.) -/
theorem resultIdx_cols {D N n w : Nat} (d : ScatterDims ⟨2, ![D, N]⟩ ⟨2, ![n, 1]⟩ ⟨2, ![D, n]⟩)
    (huw : d.updateWindowDims = [0]) (hiw : d.insertedWindowDims = [1])
    (hsd : d.scatterDimsToOperandDims = [1]) (hivd : d.indexVectorDim = 1)
    (idx : IVec ⟨2, ![n, 1]⟩ w) (k' : Fin D) (e : Fin n) (k : Fin D) (v : Fin N) :
    d.resultIdx? (ix2 k' e) idx = some (ix2 k v) ↔ (idx (ix2 e 0)).toInt = (v.val : ℤ) ∧ k' = k := by
  obtain ⟨uw, iw, sd, ivd, wf⟩ := d
  simp only at huw hiw hsd hivd
  subst huw hiw hsd hivd
  -- the start and the window coordinate on each of the two operand axes
  have hs0 : ScatterDims.start ⟨[0], [1], [1], 1, wf⟩ (ix2 k' e) idx 0 = 0 := by
    unfold ScatterDims.start
    split
    · next ha => exact absurd ha (show (0 : Fin 2) ∉ ([1] : List (Fin 2)) by decide)
    · rfl
  have hs1 : ScatterDims.start ⟨[0], [1], [1], 1, wf⟩ (ix2 k' e) idx 1 = (idx (ix2 e 0)).toInt := by
    unfold ScatterDims.start
    split
    · congr 2
      funext b
      apply Fin.ext
      match b with
      | ⟨0, _⟩ => rfl
      | ⟨1, _⟩ => rfl
    · next ha => exact absurd (show (1 : Fin 2) ∈ ([1] : List (Fin 2)) by decide) ha
  have hw0 : ScatterDims.window ⟨[0], [1], [1], 1, wf⟩ (ix2 k' e) 0 = k'.val := by
    unfold ScatterDims.window
    split
    · rfl
    · next ha => exact absurd (show (0 : Fin 2) ∈ ([0] : List (Fin 2)) by decide) ha
  have hw1 : ScatterDims.window ⟨[0], [1], [1], 1, wf⟩ (ix2 k' e) 1 = 0 := by
    unfold ScatterDims.window
    split
    · next ha => exact absurd ha (show (1 : Fin 2) ∉ ([0] : List (Fin 2)) by decide)
    · rfl
  unfold ScatterDims.resultIdx?
  split
  · next h =>
    -- the landing point is inside the operand: compare it with (k, v) coordinate by coordinate
    have h1 := h 1
    rw [hs1, hw1] at h1
    constructor
    · intro hf
      have hf' := Option.some.inj hf
      have e0 : (ScatterDims.start ⟨[0], [1], [1], 1, wf⟩ (ix2 k' e) idx 0
          + (ScatterDims.window ⟨[0], [1], [1], 1, wf⟩ (ix2 k' e) 0 : ℕ)).toNat = k.val :=
        congrArg (fun f : (⟨2, ![D, N]⟩ : Shape).Idx => (f 0).val) hf'
      have e1 : (ScatterDims.start ⟨[0], [1], [1], 1, wf⟩ (ix2 k' e) idx 1
          + (ScatterDims.window ⟨[0], [1], [1], 1, wf⟩ (ix2 k' e) 1 : ℕ)).toNat = v.val :=
        congrArg (fun f : (⟨2, ![D, N]⟩ : Shape).Idx => (f 1).val) hf'
      rw [hs0, hw0] at e0
      rw [hs1, hw1] at e1
      exact ⟨by omega, Fin.ext (by omega)⟩
    · rintro ⟨hv, rfl⟩
      congr 1
      funext a
      apply Fin.ext
      match a with
      | ⟨0, _⟩ =>
        show (ScatterDims.start ⟨[0], [1], [1], 1, wf⟩ (ix2 k' e) idx 0
          + (ScatterDims.window ⟨[0], [1], [1], 1, wf⟩ (ix2 k' e) 0 : ℕ)).toNat = k'.val
        rw [hs0, hw0]; omega
      | ⟨1, _⟩ =>
        show (ScatterDims.start ⟨[0], [1], [1], 1, wf⟩ (ix2 k' e) idx 1
          + (ScatterDims.window ⟨[0], [1], [1], 1, wf⟩ (ix2 k' e) 1 : ℕ)).toNat = v.val
        rw [hs1, hw1]; omega
  · next h =>
    -- the landing point is outside the operand: then the index word is no column of it
    constructor
    · intro hf; exact absurd hf (by simp)
    · rintro ⟨hv, rfl⟩
      exfalso
      apply h
      intro a
      match a with
      | ⟨0, _⟩ =>
        show 0 ≤ ScatterDims.start ⟨[0], [1], [1], 1, wf⟩ (ix2 k' e) idx 0
            + (ScatterDims.window ⟨[0], [1], [1], 1, wf⟩ (ix2 k' e) 0 : ℕ)
          ∧ ScatterDims.start ⟨[0], [1], [1], 1, wf⟩ (ix2 k' e) idx 0
            + (ScatterDims.window ⟨[0], [1], [1], 1, wf⟩ (ix2 k' e) 0 : ℕ) < (D : ℤ)
        rw [hs0, hw0]
        have := k'.isLt
        omega
      | ⟨1, _⟩ =>
        show 0 ≤ ScatterDims.start ⟨[0], [1], [1], 1, wf⟩ (ix2 k' e) idx 1
            + (ScatterDims.window ⟨[0], [1], [1], 1, wf⟩ (ix2 k' e) 1 : ℕ)
          ∧ ScatterDims.start ⟨[0], [1], [1], 1, wf⟩ (ix2 k' e) idx 1
            + (ScatterDims.window ⟨[0], [1], [1], 1, wf⟩ (ix2 k' e) 1 : ℕ) < (N : ℤ)
        rw [hs1, hw1]
        have := v.isLt
        omega

/-- THE COLUMN SCATTER-ADD AT `(k, v)`: the operand's element plus the sum, over the update columns `e`
    whose index word read signed equals `v`, of the update element `(k, e)`. The sum over all update
    elements that land on `(k, v)` splits into rows and columns; the two sums are exchanged, and in each
    column only row `k` can land there. -/
theorem hostScatterAdd_cols {D N n w : Nat} (d : ScatterDims ⟨2, ![D, N]⟩ ⟨2, ![n, 1]⟩ ⟨2, ![D, n]⟩)
    (huw : d.updateWindowDims = [0]) (hiw : d.insertedWindowDims = [1])
    (hsd : d.scatterDimsToOperandDims = [1]) (hivd : d.indexVectorDim = 1)
    (x : (⟨2, ![D, N]⟩ : Shape).Idx → EReal) (idx : IVec ⟨2, ![n, 1]⟩ w)
    (upd : (⟨2, ![D, n]⟩ : Shape).Idx → EReal) (k : Fin D) (v : Fin N) :
    Ideal.hostScatterAdd d x idx upd (ix2 k v)
      = x (ix2 k v)
        + ∑ e ∈ Finset.univ.filter (fun e : Fin n => (idx (ix2 e 0)).toInt = (v.val : ℤ)), upd (ix2 k e) := by
  classical
  unfold Ideal.hostScatterAdd
  congr 1
  rw [Finset.sum_filter, sum_idx2, Finset.sum_comm, Finset.sum_filter]
  refine Finset.sum_congr rfl (fun e _ => ?_)
  simp only [resultIdx_cols d huw hiw hsd hivd]
  by_cases hP : (idx (ix2 e 0)).toInt = (v.val : ℤ)
  · simp [hP]
  · simp [hP]

/-- The same for the scatter-add operation at the ideal instance (any float format). -/
theorem scatterAdd_cols {φ : FTy} {D N n w : Nat} (d : ScatterDims ⟨2, ![D, N]⟩ ⟨2, ![n, 1]⟩ ⟨2, ![D, n]⟩)
    (huw : d.updateWindowDims = [0]) (hiw : d.insertedWindowDims = [1])
    (hsd : d.scatterDimsToOperandDims = [1]) (hivd : d.indexVectorDim = 1)
    (x : FVec Ideal ⟨2, ![D, N]⟩ φ) (idx : IVec ⟨2, ![n, 1]⟩ w)
    (upd : FVec Ideal ⟨2, ![D, n]⟩ φ) (k : Fin D) (v : Fin N) :
    Host.scatterAdd (F := Ideal) d x idx upd (ix2 k v)
      = x (ix2 k v)
        + ∑ e ∈ Finset.univ.filter (fun e : Fin n => (idx (ix2 e 0)).toInt = (v.val : ℤ)), upd (ix2 k e) := by
  unfold Host.scatterAdd
  rw [Ideal.hostScatterAdd_def]
  exact hostScatterAdd_cols d huw hiw hsd hivd x idx upd k v

end Cert.LibScatterGatherCols
-- ==== Proof.RefValue.lean ====
import proofs.«417876_j38010460570162_1_alg».proof.Proof.Gen.ReferenceIdeal.Run
import proofs.«417876_j38010460570162_1_alg».proof.Proof.Gen.ReferenceIdeal.Read
import proofs.«417876_j38010460570162_1_alg».proof.Proof.Layer
import proofs.«417876_j38010460570162_1_alg».proof.Proof.LibIndexWords
import proofs.«417876_j38010460570162_1_alg».proof.Proof.LibScatterGatherRows
import proofs.«417876_j38010460570162_1_alg».proof.Proof.LibScatterGatherCols
import Idealize.ShloMosaic.Lib.IdealHost

/-!
# The reference computes the layer

The reference works edge by edge. It gathers, for every batch element `b` and edge `e`, the activation at the
edge's start, `x b (col e)` (a negative word would first be wrapped by 4096; a word naming a node is not negative,
so the wrap does nothing), multiplies by the edge's weight, and adds the products into a zeroed `4096 × 256` array at
the row the word `row e` names: entry `(i, b)` of that array is the sum over the edges with `row e = i`. The result is
`1 / (1 + exp (-·))` of its transpose, which is the logistic function.

Each step is read at one index; the gather and the accumulation are the two whose result at an index depends on the
index words.
-/

open scoped BigOperators

noncomputable section

namespace Cert.RefLayer

open Idealize.ShloMosaic Idealize.ShloMosaic.ValueIdx Cert.ReferenceIdeal Cert.ReferenceIdeal.Read Cert.Layer

variable (x : FVec Ideal S256x4096 .f32) (v : FVec Ideal S524288 .f32) (row col : IVec S524288 32)

/-- The start word of edge `e` after the wrap of negative words: a word that names a node is kept. -/
theorem start_at (hcol : InRange col) (e : Fin 524288) :
    val_main_v5 (F := Ideal) col (ix2 e 0) = col (ix1 e) := by
  rw [val_main_v5_apply]
  have hi : idx_main_v5 (ix2 e (0 : Fin 1)) = ix1 e := funext fun a => match a with | ⟨0, _⟩ => rfl
  rw [hi, val_main_v4_apply, val_main_v1_apply, val_main_v0_apply, val_main_c_apply, val_main_v3_apply]
  exact Cert.LibIndexWords.wrap_of_nonneg _ _ (hcol e).1

/-- The end word of edge `e`, as a column of the index array. -/
theorem end_at (e : Fin 524288) : val_main_v12 (F := Ideal) row (ix2 e 0) = row (ix1 e) := by
  rw [val_main_v12_apply]
  exact congrArg row (funext fun a => match a with | ⟨0, _⟩ => rfl)

/-- The weights laid out over batch × edges: entry `(b, e)` is the weight of edge `e`. -/
theorem weight_at (b : Fin 256) (e : Fin 524288) : val_main_v8 (F := Ideal) v (ix2 b e) = v (ix1 e) := by
  rw [val_main_v8_apply, val_main_v7_apply]
  exact congrArg v (funext fun a => match a with | ⟨0, _⟩ => rfl)

/-- The gathered activations: entry `(b, e)` is the activation of batch element `b` at the start of edge `e`. -/
theorem gathered_at (hcol : InRange col) (b : Fin 256) (e : Fin 524288) :
    val_main_v6 (F := Ideal) x col (ix2 b e) = x (ix2 b (node (col (ix1 e)))) := by
  unfold val_main_v6
  rw [Cert.LibScatterGatherCols.gather_cols_ideal gather_S256x4096_S524288x1_S256x524288_0_1_n_n_1_1_2561 rfl rfl rfl rfl rfl
    x (val_main_v5 (F := Ideal) col) b e (by decide)]
  refine congrArg x (congrArg (ix2 b) (Fin.ext ?_))
  show min (val_main_v5 (F := Ideal) col (ix2 e 0)).toInt.toNat (4096 - 1) = min (col (ix1 e)).toInt.toNat (4096 - 1)
  rw [start_at col hcol e]

/-- The products, transposed to edges × batch: entry `(e, b)` is the activation at the edge's start times its weight. -/
theorem product_at (hcol : InRange col) (e : Fin 524288) (b : Fin 256) :
    val_main_v10 (F := Ideal) x v col (ix2 e b) = x (ix2 b (node (col (ix1 e)))) * v (ix1 e) := by
  rw [val_main_v10_apply]
  have hi : idx_main_v10 (ix2 e b) = ix2 b e := funext fun a => match a with | ⟨0, _⟩ => rfl | ⟨1, _⟩ => rfl
  rw [hi, val_main_v9_apply, gathered_at x col hcol b e, weight_at v b e]
  rfl

/-- The accumulated array at `(i, b)`: what reaches output node `i` for batch element `b`. -/
theorem accumulated_at (hrow : InRange row) (hcol : InRange col) (i : Fin 4096) (b : Fin 256) :
    val_main_v13 (F := Ideal) x v row col (ix2 i b) = drive x v row col b i := by
  unfold val_main_v13
  rw [Cert.LibScatterGatherRows.scatterAdd_rows scatter_S4096x256_S524288x1_S524288x256_1_0_0_1 rfl rfl rfl rfl]
  unfold drive
  refine congrArg₂ (· + ·) ?_ ?_
  · rw [val_main_v11_apply, val_main_cst_apply]
    exact Ideal.ofBits_zero_f32
  · refine Finset.sum_congr (Finset.filter_congr fun e _ => ?_) fun e _ => product_at x v col hcol e b
    rw [end_at row e, toInt_eq_node (hrow e).1 (hrow e).2]
    constructor
    · intro h; exact Fin.ext (by exact_mod_cast h)
    · intro h; rw [h]

/-- THE REFERENCE IS THE LAYER, for index arrays whose words name nodes. -/
theorem result_eq (hrow : InRange row) (hcol : InRange col) :
    val_main_v20 (F := Ideal) x v row col = out x v row col := by
  funext i
  obtain ⟨b, o, rfl⟩ : ∃ (b : Fin 256) (o : Fin 4096), i = ix2 b o := ⟨i 0, i 1, eq_ix2 i⟩
  rw [val_main_v20_apply, val_main_v19_apply, val_main_cst_2_apply, val_main_v18_apply, val_main_v17_apply,
    val_main_cst_1_apply, val_main_v16_apply, val_main_v15_apply, val_main_v14_apply]
  have hi : idx_main_v14 (ix2 b o) = ix2 o b := funext fun a => match a with | ⟨0, _⟩ => rfl | ⟨1, _⟩ => rfl
  rw [hi, accumulated_at x v row col hrow hcol o b]
  simp only [Ideal.ofBits_def, Ideal.ofBits_one_f32, Ideal.hostDivf_def, Ideal.addf_def, Ideal.hostUnary_exp_def,
    Ideal.hostNegf_def, Ideal.negf_def]
  rfl

end Cert.RefLayer

end
-- ==== Proof.KernelValue.lean ====
import proofs.«417876_j38010460570162_1_alg».proof.Proof.Gen.KernelIdeal.Value
import Idealize.ShloMosaic.Lib.Pipeline.Value
import Idealize.ShloMosaic.Lib.ValueIdx
import Idealize.ShloMosaic.PureOps.Ideal.Laws
import Idealize.ShloMosaic.Lib.StableHlo.Run
import Idealize.ShloMosaic.Lib.Tactic

/-!
# The kernel computes the dense form of the layer

Before the kernel runs, the host builds the dense `4096 × 4096` matrix `W` (entry `(j, i)`: the summed weights
of the edges from input node `j` to output node `i`) and changes the format of the activations `X` and of `W`,
which on the extended reals changes nothing. The kernel walks over eight blocks of 512 output nodes; at block `n` it
multiplies all of `X` (256 × 4096) by columns `512 n … 512 n + 511` of `W` and stores the logistic function of the
product into the same columns of the result. Entry `(b, i)` of the result is therefore

  `σ (∑ k, X b k * W k i)`,

whatever block `i` falls in: the eight blocks tile the result, and each is the restriction of this one function.
-/

open scoped BigOperators

noncomputable section

open Idealize.ShloMosaic Idealize.ShloMosaic.TcCoe Idealize.SL.Sem
open Idealize.ShloMosaic.Pipeline (Dat)

namespace Cert.KernelLayer

open Cert.KernelIdeal Cert.KernelIdeal.Gen Cert.KernelIdeal.Value Idealize.ShloMosaic.ValueIdx

/-- The dense layer: the logistic function of the activations times the dense matrix. -/
def denseOut (X : S256x4096.Idx → EReal) (W : S4096x4096.Idx → EReal) : S256x4096.Idx → EReal :=
  fun i => Ideal.logistic (∑ k : Fin 4096, X (ix2 (i 0) k) * W (ix2 k (i 1)))

/-! ## One block's product at an entry -/

/-- The left operand is read at the output's row … -/
theorem lhs_row (i : S256x512.Idx) (q : dot_S256x4096_S4096x512_S256x512_1_0_0_1_n_n.contr.Idx) :
    (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide),
    dif_pos (show (0 : Fin S256x4096.rank) ∈ dot_S256x4096_S4096x512_S256x512_1_0_0_1_n_n.lhsNonContracting by decide)]
  rfl
/-- … and the contracted position, -/
theorem lhs_contr (i : S256x512.Idx) (q : dot_S256x4096_S4096x512_S256x512_1_0_0_1_n_n.contr.Idx) :
    (dot_S256x4096_S4096x512_S256x512_1_0_0_1_n_n.lhsIdx i q 1).val = (q ⟨0, by decide⟩).val :=
  dot_S256x4096_S4096x512_S256x512_1_0_0_1_n_n.lhsIdx_val_of_single rfl i q
/-- the right operand at the contracted position … -/
theorem rhs_contr (i : S256x512.Idx) (q : dot_S256x4096_S4096x512_S256x512_1_0_0_1_n_n.contr.Idx) :
    (dot_S256x4096_S4096x512_S256x512_1_0_0_1_n_n.rhsIdx i q 0).val = (q ⟨0, by decide⟩).val :=
  dot_S256x4096_S4096x512_S256x512_1_0_0_1_n_n.rhsIdx_val_of_single rfl i q
/-- … and the output's column. -/
theorem rhs_col (i : S256x512.Idx) (q : dot_S256x4096_S4096x512_S256x512_1_0_0_1_n_n.contr.Idx) :
    (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide),
    dif_pos (show (1 : Fin S4096x512.rank) ∈ dot_S256x4096_S4096x512_S256x512_1_0_0_1_n_n.rhsNonContracting by decide)]
  rfl

/-- WHAT THE BODY STORES, at entry `(p, q)` of the block: the logistic function of row `p` of the activations times
    column `q` of the loaded block of the matrix. -/
theorem stored_at (x0 : Vec Ideal S256x4096 .bf16) (x1 : Vec Ideal S4096x512 .bf16) (p : Fin 256) (q : Fin 512) :
    k0_pay1 (F := Ideal) x0 x1 (ix2 p q) = Ideal.logistic (∑ k : Fin 4096, x0 (ix2 p k) * x1 (ix2 k q)) := by
  unfold k0_pay1
  change Ideal.logistic (FloatOps.matmul (F := Ideal) dot_S256x4096_S4096x512_S256x512_1_0_0_1_n_n none
    (shapeCast S256x4096 x0 shapeCasts_S256x4096_S256x4096) (shapeCast S4096x512 x1 shapeCasts_S4096x512_S4096x512)
    (constant S256x512 .f32 0x00000000#32) (ix2 p q)) = _
  rw [Ideal.matmul_constant_zero_apply,
    ← Equiv.sum_comp (contrEquiv1 dot_S256x4096_S4096x512_S256x512_1_0_0_1_n_n 4096 rfl rfl).symm,
    shapeCast_self, shapeCast_self]
  refine congrArg Ideal.logistic (Finset.sum_congr rfl fun k _ => ?_)
  have hk := contrEquiv1_symm_val dot_S256x4096_S4096x512_S256x512_1_0_0_1_n_n 4096 rfl rfl k
  have el : dot_S256x4096_S4096x512_S256x512_1_0_0_1_n_n.lhsIdx (ix2 p q)
      ((contrEquiv1 dot_S256x4096_S4096x512_S256x512_1_0_0_1_n_n 4096 rfl rfl).symm k) = ix2 p k :=
    funext fun a => Fin.ext (by
      match a with
      | ⟨0, _⟩ => exact lhs_row _ _
      | ⟨1, _⟩ => exact (lhs_contr _ _).trans hk)
  have er : dot_S256x4096_S4096x512_S256x512_1_0_0_1_n_n.rhsIdx (ix2 p q)
      ((contrEquiv1 dot_S256x4096_S4096x512_S256x512_1_0_0_1_n_n 4096 rfl rfl).symm k) = ix2 k q :=
    funext fun a => Fin.ext (by
      match a with
      | ⟨0, _⟩ => exact (rhs_contr _ _).trans hk
      | ⟨1, _⟩ => exact rhs_col _ _)
  rw [el, er]

/-! ## The two staged arrays, as the host wrote them -/

variable (m : (ℓ : Loc nD τ sig) → Buf (Elt Ideal) ℓ) (ρ : Dev nD → PrngReg)

/-- The start words after the wrap of negative words, as a column. -/
abbrev startCol (col : IVec S524288 32) : IVec S524288x1 32 :=
  broadcastInDim S524288x1 ![0] bcast_S524288_S524288x1_0
    (select (cmpi .slt col (broadcastInDim S524288 ![] bcast_S_S524288 (constantI S_ 32 0#32)))
      (addi col (broadcastInDim S524288 ![] bcast_S_S524288 (constantI S_ 32 4096#32))) col)

/-- The dense matrix as the host builds it: the weights added into a zeroed array at (start, end). -/
abbrev denseW (v : FVec Ideal S524288 .f32) (row col : IVec S524288 32) : FVec Ideal S4096x4096 .f32 :=
  Host.scatterAdd scatter_S4096x4096_S524288x2_S524288_n_01_01_1
    (broadcastInDim S4096x4096 ![] bcast_S_S4096x4096 (constant S_ .f32 0x00000000#32))
    (concatenate S524288x2 1 [⟨S524288x1, startCol col⟩, ⟨S524288x1, startCol row⟩] concatenates_S524288x1_S524288x1_S524288x2_d1)
    v

/-- The activations as staged: the argument, its format changed. -/
theorem staged_x (c : Dev nD) :
    (V m c main_v15 : S256x4096.Idx → EReal) = m ((c : Thread nD τ).loc main_arg0) := by
  dsimp only [Gen.V, Gen.hostOps0]
  after_results
  rfl

set_option maxHeartbeats 2000000 in
/-- The matrix as staged: the dense matrix, its format changed. -/
theorem staged_w (c : Dev nD) :
    (V m c main_v16 : S4096x4096.Idx → EReal)
      = denseW (m ((c : Thread nD τ).loc main_arg1)) (m ((c : Thread nD τ).loc main_arg2)) (m ((c : Thread nD τ).loc main_arg3)) := by
  dsimp only [Gen.V, Gen.hostOps0]
  after_results
  rfl

end Cert.KernelLayer

end
-- ==== Proof.KernelArray.lean ====
import proofs.«417876_j38010460570162_1_alg».proof.Proof.KernelValue

/-!
# From the eight blocks to the whole result

The activations are staged as ONE block, the whole array, at every point of the grid; the matrix and the result move
together, point `n` holding columns `512 n … 512 n + 511`. So what point `n` writes back is the restriction of the
dense layer to those columns of the result, every entry of the result lies in the block of the point `column / 512`,
and after the run the result array holds the dense layer.
-/

open scoped BigOperators

noncomputable section

open Idealize.ShloMosaic Idealize.ShloMosaic.TcCoe Idealize.SL.Sem
open Idealize.ShloMosaic.Pipeline (Dat)

namespace Cert.KernelLayer

open Cert.KernelIdeal Cert.KernelIdeal.Gen Cert.KernelIdeal.Value Idealize.ShloMosaic.ValueIdx

variable (m : (ℓ : Loc nD τ sig) → Buf (Elt Ideal) ℓ) (ρ : Dev nD → PrngReg)

theorem origin : (![0, 0] : Fin 2 → Nat) = fun _ => 0 := funext fun a => by fin_cases a <;> rfl

/-- The block indices over the grid: the activations always at block (0, 0); the matrix and the result at
    block (0, n) at point `n`. -/
theorem block_indices : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The activations' block at any point is the staged array itself. -/
theorem act_block (c : Dev nD) (t : Fin cfg0.N) (y : S256x4096.Idx) :
    (iblk m c 0 t : Vec Ideal S256x4096 .bf16) y = (V m c main_v15 : S256x4096.Idx → EReal) y := by
  obtain ⟨e0, e1, -, -, -, -⟩ := block_indices t
  unfold iblk
  rw [View.read_apply]
  show V m c main_v15 _ = V m c main_v15 _
  congr 1
  funext a
  apply Fin.ext
  match a with
  | ⟨0, _⟩ => show win0_0.index t (0 : Fin 2) * 256 + 1 * (y 0).val = (y 0).val; omega
  | ⟨1, _⟩ => show win0_0.index t (1 : Fin 2) * 4096 + 1 * (y 1).val = (y 1).val; omega

/-- The matrix's block at point `n`, entry `(k, q)`, is the staged matrix at `(k, 512 n + q)`. -/
theorem mat_block (c : Dev nD) (t : Fin cfg0.N) (k : Fin 4096) (q : Fin 512) (i : Fin 4096)
    (hi : i.val = t.val * 512 + q.val) :
    (iblk m c 1 t : Vec Ideal S4096x512 .bf16) (ix2 k q) = (V m c main_v16 : S4096x4096.Idx → EReal) (ix2 k i) := by
  obtain ⟨-, -, e2, e3, -, -⟩ := block_indices t
  unfold iblk
  rw [View.read_apply]
  show V m c main_v16 _ = V m c main_v16 _
  congr 1
  funext a
  apply Fin.ext
  match a with
  | ⟨0, _⟩ => show win0_1.index t (0 : Fin 2) * 4096 + 1 * k.val = k.val; omega
  | ⟨1, _⟩ => show win0_1.index t (1 : Fin 2) * 512 + 1 * q.val = i.val; omega

/-- Entry `(p, q)` of what the body stores at point `n` is the dense layer at that entry's place in the result. -/
theorem block_entry (c : Dev nD) (t : Fin cfg0.N) (p : Fin 256) (q : Fin 512) :
    k0_pay1 (F := Ideal) (iblk m c 0 t) (iblk m c 1 t) (ix2 p q)
      = denseOut (V m c main_v15) (V m c main_v16) (((cfg0.win 2).blk t).view.emb (ix2 p q)) := by
  obtain ⟨-, -, -, -, e4, e5⟩ := block_indices t
  have h0 : ((((cfg0.win 2).blk t).view.emb (ix2 p q) : S256x4096.Idx) 0) = p := Fin.ext (by
    show win0_2.index t (0 : Fin 2) * 256 + 1 * p.val = p.val; omega)
  have h1 : ((((cfg0.win 2).blk t).view.emb (ix2 p q) : S256x4096.Idx) 1).val = t.val * 512 + q.val := by
    show win0_2.index t (1 : Fin 2) * 512 + 1 * q.val = _; omega
  refine (stored_at (iblk m c 0 t) (iblk m c 1 t) p q).trans ?_
  unfold denseOut
  rw [h0]
  refine congrArg Ideal.logistic (Finset.sum_congr rfl fun k _ => ?_)
  rw [act_block m c t (ix2 p k), mat_block m c t k q _ h1]

/-- WHAT POINT `n` WRITES BACK is block `n` of the dense layer of the staged arrays. -/
theorem flushed_eq (c : Dev nD) (t : Fin cfg0.N) :
    (dats m 0 c).flushed 2 t
      = ((cfg0.win 2).blk t).view.read (Elt Ideal) (denseOut (V m c main_v15) (V m c main_v16)) := by
  rw [flushed2]
  unfold out0_2
  rw [View.canon_unit_zero origin]
  simp only [View.ld_unit_zero (S := S256x4096) origin, View.ld_unit_zero (S := S4096x512) origin]
  funext j
  obtain ⟨p, q, rfl⟩ : ∃ (p : Fin 256) (q : Fin 512), j = ix2 p q := ⟨j 0, j 1, eq_ix2 j⟩
  exact block_entry m c t p q

/-- An index of the result is in point `n`'s block iff each coordinate is in the block's range on its axis. -/
theorem mem_block (t : Fin cfg0.N) (i : S256x4096.Idx) :
    i ∈ ((cfg0.win 2).blk t).view.set ↔ ∀ a : Fin 2, win0_2.index t a * S256x512.size a ≤ (i a).val
      ∧ (i a).val < win0_2.index t a * S256x512.size a + S256x512.size a := by
  show i ∈ ((View.whole main_v17).slice (win0_2.rect t)).set ↔ _
  rw [View.set_slice_whole, Rect.mem_set_unit]
  exact Iff.rfl

/-- Every entry of the result is in the block of the point its column's block of 512 names. -/
theorem covered (i : S256x4096.Idx) :
    ∃ t : Fin cfg0.N, (cfg0.win 2).flush t = true ∧ i ∈ ((cfg0.win 2).blk t).view.set := by
  have hi0 : (i 0).val < 256 := idx2_lt0 i
  have hi1 : (i 1).val < 4096 := idx2_lt1 i
  have hN : cfg0.N = 8 := N_0
  have hlt : (i 1).val / 512 < cfg0.N := by omega
  obtain ⟨-, -, -, -, e4, e5⟩ := block_indices ⟨(i 1).val / 512, hlt⟩
  refine ⟨⟨(i 1).val / 512, hlt⟩, flush0_2 _, ?_⟩
  rw [mem_block]
  intro a
  match a with
  | ⟨0, _⟩ =>
    show win0_2.index ⟨(i 1).val / 512, hlt⟩ (0 : Fin 2) * 256 ≤ (i 0).val
      ∧ (i 0).val < win0_2.index ⟨(i 1).val / 512, hlt⟩ (0 : Fin 2) * 256 + 256
    omega
  | ⟨1, _⟩ =>
    show win0_2.index ⟨(i 1).val / 512, hlt⟩ (1 : Fin 2) * 512 ≤ (i 1).val
      ∧ (i 1).val < win0_2.index ⟨(i 1).val / 512, hlt⟩ (1 : Fin 2) * 512 + 512
    have e5' : win0_2.index ⟨(i 1).val / 512, hlt⟩ (1 : Fin 2) = (i 1).val / 512 := e5
    omega

/-- THE RESULT ARRAY after the run is the dense layer of the staged arrays. -/
theorem final (c : Dev nD) : (dats m 0 c).arrAt 2 cfg0.N = denseOut (V m c main_v15) (V m c main_v16) :=
  (dats m 0 c).arrAt_eq_of_cover 2 (denseOut (V m c main_v15) (V m c main_v16)) (fun t _ => flushed_eq m c t) covered

/-- THE KERNEL'S RUN, read: the result is the dense layer of the activations and of the dense matrix the host built
    from the weights and the index words; the arguments are unchanged. -/
theorem run : θ_run defs (onTc (τ := τ) (main (F := Ideal))) ⟨m, fun _ => 0, ρ⟩ fun r => ∀ c : Dev nD,
      r.2.mem ((c : Thread nD τ).loc main_v17)
        = denseOut (m ((c : Thread nD τ).loc main_arg0))
            (denseW (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by rw [staged_x m c, staged_w m c])), (h c).2⟩)
    (run_blocks m ρ)

end Cert.KernelLayer

end
-- ==== Proof.LibSparseApply.lean ====
import Mathlib.Algebra.BigOperators.Group.Finset.Basic
import Mathlib.Algebra.BigOperators.Group.Finset.Piecewise
import Mathlib.Algebra.BigOperators.Group.Finset.Sigma
import Mathlib.Algebra.BigOperators.Ring.Finset
import Mathlib.Data.EReal.Operations

/-!
# A sparse matrix applied to a vector: the dense form and the edge form

A sparse `I × J` matrix is given by `n` edges; edge `e` carries a value `v e`, a column `c e` and
belongs (or not) to the row in question (`P e`: "the row of edge `e` is `i`"). Row `i` of the matrix
applied to a vector `x` can be computed two ways:

* DENSE: first build entry `(i, j)` of the matrix as the sum of the values of the edges of row `i`
  whose column is `j`, then take the inner product with `x`: `∑ j, x j * ∑ (e : c e = j ∧ P e), v e`;
* BY EDGES: sum over the edges of row `i` the value times the entry of `x` the edge points at:
  `∑ (e : P e), x (c e) * v e`.

They agree: distribute `x j` over the inner sum, exchange the two sums, and for a fixed edge only
`j = c e` contributes. Distributivity is the step that needs numbers and not infinities, so on the
extended reals the statement asks every `x j` and every `v e` to be a real number.
-/

open scoped BigOperators

namespace Cert.LibSparseApply

/-- The two forms agree over the reals. -/
theorem dense_eq_edges_real {J n : ℕ} (x : Fin J → ℝ) (v : Fin n → ℝ) (c : Fin n → Fin J)
    (P : Fin n → Prop) [DecidablePred P] :
    ∑ j, x j * ∑ e ∈ Finset.univ.filter (fun e => c e = j ∧ P e), v e
      = ∑ e ∈ Finset.univ.filter P, x (c e) * v e := by
  simp only [Finset.mul_sum, Finset.sum_filter]
  rw [Finset.sum_comm]
  refine Finset.sum_congr rfl fun e _ => ?_
  by_cases hP : P e
  · simp only [hP, and_true, mul_ite, mul_zero, Finset.sum_ite_eq, Finset.mem_univ, if_true]
  · simp only [hP, and_false, if_false, mul_zero, Finset.sum_const_zero]

/-- A finite sum of real numbers, read in the extended reals, is the sum of the numbers read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two forms agree on the extended reals when the vector's entries and the edges' values are real
    numbers; each sum may start from an explicit zero, as an accumulation into a zeroed array does. -/
theorem dense_eq_edges {J n : ℕ} (x : Fin J → EReal) (v : Fin n → EReal) (c : Fin n → Fin J)
    (P : Fin n → Prop) [DecidablePred P]
    (hx : ∀ j, ∃ r : ℝ, x j = r) (hv : ∀ e, ∃ r : ℝ, v e = r) :
    ∑ j, x j * (0 + ∑ e ∈ Finset.univ.filter (fun e => c e = j ∧ P e), v e)
      = 0 + ∑ e ∈ Finset.univ.filter P, x (c e) * v e := by
  choose xr hxr using hx
  choose vr hvr using hv
  simp only [hxr, hvr, zero_add, ← coe_sum, ← EReal.coe_mul]
  exact congrArg _ (dense_eq_edges_real xr vr c P)

end Cert.LibSparseApply
-- ==== Proof.LibScatterAddPairs.lean ====
import Idealize.ShloMosaic.Lib.ValueIdx
import Idealize.ShloMosaic.PureOps.Contract
import proofs.«417876_j38010460570162_1_alg».proof.Proof.LibScatterGatherRows
import Mathlib.Algebra.BigOperators.Group.Finset.Basic
import Mathlib.Algebra.BigOperators.Group.Finset.Piecewise

/-!
# Scatter-add of a vector into a matrix at index pairs, read at an entry

The array operation `zeros.at[rows, cols].add(updates)`: an `N × M` operand, a list of `n` index PAIRS
(an `n × 2` array of integer words: word `(e, 0)` names a row, word `(e, 1)` a column), and a vector of
`n` updates. Over the extended reals, result entry `(r, j)` is the operand's entry plus the sum of the
updates `e` whose pair, both words read SIGNED and NOT clamped, is exactly `(r, j)`. An update whose row
word is negative or at least `N`, or whose column word is negative or at least `M`, lands nowhere and is
dropped.

`resultIdx_pairs` says where one update lands; `hostScatterAdd_pairs` / `scatterAdd_pairs` give the sum.
Every statement is for arbitrary extents `N`, `M`, `n` and any record of dimension numbers whose lists are
the ones named by the hypotheses (no update window axis, both operand axes inserted, component `0` of
the index vector the row and component `1` the column, the index vector on axis `1`), so each applies
to a concrete record with `rfl` for every list.
-/

open scoped BigOperators

namespace Cert.LibScatterAddPairs

open Idealize.ShloMosaic Idealize.ShloMosaic.ValueIdx

/-- WHERE AN UPDATE LANDS: update `e` lands on operand entry `(r, j)` exactly when the `e`-th pair's
    row word, read signed, is `r` and its column word, read signed, is `j`. (On each operand axis the
    landing coordinate is the unclamped start plus window coordinate 0; a landing point outside the
    operand is no point at all.) -/
theorem resultIdx_pairs {N M n w : Nat} (d : ScatterDims ⟨2, ![N, M]⟩ ⟨2, ![n, 2]⟩ ⟨1, ![n]⟩)
    (huw : d.updateWindowDims = []) (hiw : d.insertedWindowDims = [0, 1])
    (hsd : d.scatterDimsToOperandDims = [0, 1]) (hivd : d.indexVectorDim = 1)
    (idx : IVec ⟨2, ![n, 2]⟩ w) (e : Fin n) (r : Fin N) (j : Fin M) :
    d.resultIdx? (ix1 e) idx = some (ix2 r j)
      ↔ (idx (ix2 e 0)).toInt = (r.val : ℤ) ∧ (idx (ix2 e 1)).toInt = (j.val : ℤ) := by
  obtain ⟨uw, iw, sd, ivd, wf⟩ := d
  simp only at huw hiw hsd hivd
  subst huw hiw hsd hivd
  -- the start on each operand axis is that component of the update's index pair
  have hs0 : ScatterDims.start ⟨[], [0, 1], [0, 1], 1, wf⟩ (ix1 e) idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 2) ∈ ([0, 1] : List (Fin 2)) by decide) ha
  have hs1 : ScatterDims.start ⟨[], [0, 1], [0, 1], 1, wf⟩ (ix1 e) idx 1 = (idx (ix2 e 1)).toInt := by
    unfold ScatterDims.start
    split
    · congr 2
      funext b
      apply Fin.ext
      match b with
      | ⟨0, _⟩ => rfl
      | ⟨1, _⟩ => rfl
    · next ha => exact absurd (show (1 : Fin 2) ∈ ([0, 1] : List (Fin 2)) by decide) ha
  -- both operand axes are inserted: the window coordinate is 0 on each
  have hw : ∀ a, ScatterDims.window ⟨[], [0, 1], [0, 1], 1, wf⟩ (ix1 e) a = 0 := by
    intro a
    unfold ScatterDims.window
    split
    · next ha => exact absurd ha (show a ∉ ([] : List (Fin 2)) from List.not_mem_nil)
    · rfl
  unfold ScatterDims.resultIdx?
  split
  · next h =>
    -- the landing point is inside the operand: compare it with (r, j) coordinate by coordinate
    constructor
    · intro hf
      have hf' := Option.some.inj hf
      have e0 : (ScatterDims.start ⟨[], [0, 1], [0, 1], 1, wf⟩ (ix1 e) idx 0
          + (ScatterDims.window ⟨[], [0, 1], [0, 1], 1, wf⟩ (ix1 e) 0 : ℕ)).toNat = r.val :=
        congrArg (fun f : (⟨2, ![N, M]⟩ : Shape).Idx => (f 0).val) hf'
      have e1 : (ScatterDims.start ⟨[], [0, 1], [0, 1], 1, wf⟩ (ix1 e) idx 1
          + (ScatterDims.window ⟨[], [0, 1], [0, 1], 1, wf⟩ (ix1 e) 1 : ℕ)).toNat = j.val :=
        congrArg (fun f : (⟨2, ![N, M]⟩ : Shape).Idx => (f 1).val) hf'
      have h0 := (h 0).1
      have h1 := (h 1).1
      rw [hs0, hw] at e0 h0
      rw [hs1, hw] at e1 h1
      exact ⟨by omega, by omega⟩
    · rintro ⟨hr, hj⟩
      congr 1
      funext a
      apply Fin.ext
      match a with
      | ⟨0, _⟩ =>
        show (ScatterDims.start ⟨[], [0, 1], [0, 1], 1, wf⟩ (ix1 e) idx 0
          + (ScatterDims.window ⟨[], [0, 1], [0, 1], 1, wf⟩ (ix1 e) 0 : ℕ)).toNat = r.val
        rw [hs0, hw]; omega
      | ⟨1, _⟩ =>
        show (ScatterDims.start ⟨[], [0, 1], [0, 1], 1, wf⟩ (ix1 e) idx 1
          + (ScatterDims.window ⟨[], [0, 1], [0, 1], 1, wf⟩ (ix1 e) 1 : ℕ)).toNat = j.val
        rw [hs1, hw]; omega
  · next h =>
    -- the landing point is outside the operand: then the pair is no entry of it
    constructor
    · intro hf; exact absurd hf (by simp)
    · rintro ⟨hr, hj⟩
      exfalso
      apply h
      intro a
      match a with
      | ⟨0, _⟩ =>
        show 0 ≤ ScatterDims.start ⟨[], [0, 1], [0, 1], 1, wf⟩ (ix1 e) idx 0
            + (ScatterDims.window ⟨[], [0, 1], [0, 1], 1, wf⟩ (ix1 e) 0 : ℕ)
          ∧ ScatterDims.start ⟨[], [0, 1], [0, 1], 1, wf⟩ (ix1 e) idx 0
            + (ScatterDims.window ⟨[], [0, 1], [0, 1], 1, wf⟩ (ix1 e) 0 : ℕ) < (N : ℤ)
        rw [hs0, hw]
        have := r.isLt
        omega
      | ⟨1, _⟩ =>
        show 0 ≤ ScatterDims.start ⟨[], [0, 1], [0, 1], 1, wf⟩ (ix1 e) idx 1
            + (ScatterDims.window ⟨[], [0, 1], [0, 1], 1, wf⟩ (ix1 e) 1 : ℕ)
          ∧ ScatterDims.start ⟨[], [0, 1], [0, 1], 1, wf⟩ (ix1 e) idx 1
            + (ScatterDims.window ⟨[], [0, 1], [0, 1], 1, wf⟩ (ix1 e) 1 : ℕ) < (M : ℤ)
        rw [hs1, hw]
        have := j.isLt
        omega

/-- THE PAIR SCATTER-ADD AT `(r, j)`: the operand's entry plus the sum of the updates `e` whose index
    pair, read signed, is `(r, j)`. -/
theorem hostScatterAdd_pairs {N M n w : Nat} (d : ScatterDims ⟨2, ![N, M]⟩ ⟨2, ![n, 2]⟩ ⟨1, ![n]⟩)
    (huw : d.updateWindowDims = []) (hiw : d.insertedWindowDims = [0, 1])
    (hsd : d.scatterDimsToOperandDims = [0, 1]) (hivd : d.indexVectorDim = 1)
    (x : (⟨2, ![N, M]⟩ : Shape).Idx → EReal) (idx : IVec ⟨2, ![n, 2]⟩ w)
    (upd : (⟨1, ![n]⟩ : Shape).Idx → EReal) (r : Fin N) (j : Fin M) :
    Ideal.hostScatterAdd d x idx upd (ix2 r j)
      = x (ix2 r j)
        + ∑ e ∈ Finset.univ.filter (fun e : Fin n =>
            (idx (ix2 e 0)).toInt = (r.val : ℤ) ∧ (idx (ix2 e 1)).toInt = (j.val : ℤ)), upd (ix1 e) := by
  classical
  unfold Ideal.hostScatterAdd
  congr 1
  rw [Finset.sum_filter, Cert.LibScatterGatherRows.sum_idx1, Finset.sum_filter]
  refine Finset.sum_congr rfl (fun e _ => ?_)
  simp only [resultIdx_pairs d huw hiw hsd hivd]

/-- The same for the scatter-add operation at the ideal instance (any float format). -/
theorem scatterAdd_pairs {φ : FTy} {N M n w : Nat} (d : ScatterDims ⟨2, ![N, M]⟩ ⟨2, ![n, 2]⟩ ⟨1, ![n]⟩)
    (huw : d.updateWindowDims = []) (hiw : d.insertedWindowDims = [0, 1])
    (hsd : d.scatterDimsToOperandDims = [0, 1]) (hivd : d.indexVectorDim = 1)
    (x : FVec Ideal ⟨2, ![N, M]⟩ φ) (idx : IVec ⟨2, ![n, 2]⟩ w)
    (upd : FVec Ideal ⟨1, ![n]⟩ φ) (r : Fin N) (j : Fin M) :
    Host.scatterAdd (F := Ideal) d x idx upd (ix2 r j)
      = x (ix2 r j)
        + ∑ e ∈ Finset.univ.filter (fun e : Fin n =>
            (idx (ix2 e 0)).toInt = (r.val : ℤ) ∧ (idx (ix2 e 1)).toInt = (j.val : ℤ)), upd (ix1 e) := by
  unfold Host.scatterAdd
  rw [Ideal.hostScatterAdd_def]
  exact hostScatterAdd_pairs d huw hiw hsd hivd x idx upd r j

end Cert.LibScatterAddPairs
-- ==== Proof.Bridge.lean ====
import proofs.«417876_j38010460570162_1_alg».proof.Proof.KernelValue
import proofs.«417876_j38010460570162_1_alg».proof.Proof.Layer
import proofs.«417876_j38010460570162_1_alg».proof.Proof.LibSparseApply
import proofs.«417876_j38010460570162_1_alg».proof.Proof.LibIndexWords
import proofs.«417876_j38010460570162_1_alg».proof.Proof.LibScatterAddPairs
import Idealize.ShloMosaic.Lib.Pipeline.Value

/-!
# The dense form is the layer

The host's dense matrix has, at entry `(k, i)`, zero plus the sum of the weights of the edges whose start word is
`k` and whose end word is `i` (the two words of an edge's row of the index pairs; the wrap of a negative word does
nothing to a word that names a node). Multiplying row `b` of the activations by column `i` of that matrix sums, over
the input nodes `k`, the activation at `k` times the summed weights of the edges from `k` to `i`; by the law of
LibSparseApply this is the sum over the edges ending at `i` of the activation at the edge's start times its weight — what
reaches output node `i` in the layer. The law distributes a product over a sum, which is where the activations and the
weights being real numbers is used.
-/

open scoped BigOperators

noncomputable section

namespace Cert.KernelLayer

open Idealize.ShloMosaic Idealize.ShloMosaic.ValueIdx Cert.KernelIdeal Cert.KernelIdeal.Gen Cert.Layer

/-- A word in `[0, 4096)` has the number of node `k` as its value exactly when the node it names is `k`. -/
theorem toInt_eq_iff_node {w : BitVec 32} (h : 0 ≤ w.toInt ∧ w.toInt < 4096) (k : Fin 4096) :
    w.toInt = (k.val : ℤ) ↔ node w = k := by
  rw [toInt_eq_node h.1 h.2]
  constructor
  · intro hk; exact Fin.ext (by exact_mod_cast hk)
  · intro hk; rw [hk]

/-- The column of wrapped words reads, at edge `e`, the word itself when it names a node. -/
theorem startCol_at (w : IVec S524288 32) (hw : InRange w) (e : Fin 524288) :
    startCol w (ix2 e 0) = w (ix1 e) := by
  unfold startCol
  rw [broadcastInDim_apply _ bcast_S524288_S524288x1_0 _ (ix2 e 0) (ix1 e) (fun a => match a with
    | ⟨0, _⟩ => by show e.val = if (524288 : Nat) = 1 then 0 else e.val; rw [if_neg (by decide)])]
  exact Cert.LibIndexWords.wrap_of_nonneg (w (ix1 e)) _ (hw e).1

/-- The index pairs: word 0 of edge `e`'s row is its start word … -/
theorem pair_start (row col : IVec S524288 32) (hcol : InRange col) (e : Fin 524288) :
    concatenate S524288x2 1 [⟨S524288x1, startCol col⟩, ⟨S524288x1, startCol row⟩]
      concatenates_S524288x1_S524288x1_S524288x2_d1 (ix2 e 0) = col (ix1 e) := by
  rw [concatenate_pair_apply_left (1 : Fin S524288x2.rank) (startCol col) (startCol row)
    concatenates_S524288x1_S524288x1_S524288x2_d1 (ix2 e 0) rfl (ix2 e 0) (fun b => match b with
      | ⟨0, _⟩ => rfl
      | ⟨1, _⟩ => rfl)]
  exact startCol_at col hcol e

/-- … and word 1 its end word. -/
theorem pair_end (row col : IVec S524288 32) (hrow : InRange row) (e : Fin 524288) :
    concatenate S524288x2 1 [⟨S524288x1, startCol col⟩, ⟨S524288x1, startCol row⟩]
      concatenates_S524288x1_S524288x1_S524288x2_d1 (ix2 e 1) = row (ix1 e) := by
  rw [concatenate_pair_apply_right (1 : Fin S524288x2.rank) (startCol col) (startCol row)
    concatenates_S524288x1_S524288x1_S524288x2_d1 (ix2 e 1) rfl rfl (ix2 e 0) (fun b => match b with
      | ⟨0, _⟩ => fun _ => rfl
      | ⟨1, _⟩ => fun h => absurd rfl h) rfl]
  exact startCol_at row hrow e

/-- THE DENSE MATRIX AT `(k, i)`: zero plus the summed weights of the edges from node `k` to node `i`. -/
theorem denseW_at (v : FVec Ideal S524288 .f32) (row col : IVec S524288 32) (hrow : InRange row) (hcol : InRange col)
    (k i : Fin 4096) :
    denseW v row col (ix2 k i)
      = 0 + ∑ e ∈ Finset.univ.filter (fun e : Fin 524288 => node (col (ix1 e)) = k ∧ node (row (ix1 e)) = i), v (ix1 e) := by
  show Host.scatterAdd (F := Ideal) scatter_S4096x4096_S524288x2_S524288_n_01_01_1 _ _ v (ix2 k i) = _
  rw [Cert.LibScatterAddPairs.scatterAdd_pairs scatter_S4096x4096_S524288x2_S524288_n_01_01_1 rfl rfl rfl rfl]
  refine congrArg₂ (· + ·) ?_ (Finset.sum_congr (Finset.filter_congr fun e _ => ?_) fun _ _ => rfl)
  · show Ideal.ofBits .f32 0x00000000#32 = 0
    exact Ideal.ofBits_zero_f32
  · rw [pair_start row col hcol e, pair_end row col hrow e, toInt_eq_iff_node (hcol e) k, toInt_eq_iff_node (hrow e) i]

/-- THE DENSE FORM IS THE LAYER, for real activations and weights and index words that name nodes. -/
theorem dense_eq_layer (x : FVec Ideal S256x4096 .f32) (v : FVec Ideal S524288 .f32) (row col : IVec S524288 32)
    (hx : Finite x) (hv : Finite v) (hrow : InRange row) (hcol : InRange col) :
    denseOut x (denseW v row col) = out x v row col := by
  funext i
  obtain ⟨b, o, rfl⟩ : ∃ (b : Fin 256) (o : Fin 4096), i = ix2 b o := ⟨i 0, i 1, eq_ix2 i⟩
  show Ideal.logistic (∑ k : Fin 4096, x (ix2 b k) * denseW v row col (ix2 k o)) = Ideal.logistic (drive x v row col b o)
  refine congrArg Ideal.logistic ?_
  rw [Finset.sum_congr rfl fun k _ => congrArg (x (ix2 b k) * ·) (denseW_at v row col hrow hcol k o)]
  exact Cert.LibSparseApply.dense_eq_edges (fun k => x (ix2 b k)) (fun e => v (ix1 e)) (fun e => node (col (ix1 e)))
    (fun e => node (row (ix1 e)) = o) (fun k => hx _) (fun e => hv _)

end Cert.KernelLayer

end
-- ==== Proof.lean ====
/-
  One message-passing layer over a sparse weight matrix, `out = σ (x · Wᵀ)` with `W` given by its edges
  (a weight, an end node `row` and a start node `col` per edge), computed two ways.

  The reference goes edge by edge: it gathers the activation at each edge's start, multiplies by the edge's weight and
  adds the products into the edge's end node; then `1 / (1 + exp (-·))`.
  The kernel first lets the host build the dense matrix (entry `(k, i)`: the summed weights of the edges from `k` to
  `i`), then multiplies the activations by it block of 512 output nodes by block and applies the logistic function.

  Both are the function `Cert.Layer.out`: at batch element `b` and output node `i`, the logistic function of the sum
  over the edges ending at `i` of the activation at the edge's start times the edge's weight. For the reference this is
  a reading of its operations one by one (RefValue); for the kernel the eight blocks are first put together into the
  dense form (KernelValue, KernelArray), and the dense form is the sum over edges by distributing each activation over
  the weights that share its start node and exchanging the two sums (LibSparseApply, Bridge). The exchange is valid for
  real numbers, which the precondition provides, as it provides that every index word names a node — where the two
  programs treat a negative or too large word differently, nothing is claimed (Domain).

  On the extended reals a change of float format is the identity, a product into a zero accumulator is the plain sum,
  and the kernel's one logistic operation is the reference's `1 / (1 + exp (-·))`.
-/
import proofs.«417876_j38010460570162_1_alg».proof.Defs
import proofs.«417876_j38010460570162_1_alg».proof.Proof.Gen.Kernel
import proofs.«417876_j38010460570162_1_alg».proof.Proof.Gen.Kernel.Skeleton
import proofs.«417876_j38010460570162_1_alg».proof.Proof.Gen.Kernel.Launch
import proofs.«417876_j38010460570162_1_alg».proof.Proof.Gen.Kernel.Points
import proofs.«417876_j38010460570162_1_alg».proof.Proof.Gen.Kernel.Frame
import proofs.«417876_j38010460570162_1_alg».proof.Proof.Gen.KernelIdeal
import proofs.«417876_j38010460570162_1_alg».proof.Proof.Gen.KernelIdeal.Skeleton
import proofs.«417876_j38010460570162_1_alg».proof.Proof.Gen.KernelIdeal.Launch
import proofs.«417876_j38010460570162_1_alg».proof.Proof.Gen.KernelIdeal.Points
import proofs.«417876_j38010460570162_1_alg».proof.Proof.Gen.KernelIdeal.Frame
import proofs.«417876_j38010460570162_1_alg».proof.Proof.Gen.ReferenceIdeal
import proofs.«417876_j38010460570162_1_alg».proof.Proof.Gen.Pre_finite_inputs
import proofs.«417876_j38010460570162_1_alg».proof.Proof.Domain
import proofs.«417876_j38010460570162_1_alg».proof.Proof.RefValue
import proofs.«417876_j38010460570162_1_alg».proof.Proof.KernelArray
import proofs.«417876_j38010460570162_1_alg».proof.Proof.Bridge
import Idealize.ShloMosaic.Adequacy
import Idealize.ShloMosaic.Init

noncomputable section

namespace Cert.Proof

open Idealize.ShloMosaic Idealize.ShloMosaic.TcCoe Idealize.SL.Sem

/-- The kernel at the word level runs and leaves its arguments alone. -/
theorem frame_kernel : Cert.frame_Kernel := fun m ρ _ => Cert.Kernel.Gen.frame m ρ

/-- So does the kernel on the extended reals. -/
theorem frame_kernel_ideal : Cert.frame_KernelIdeal := fun m ρ _ => Cert.KernelIdeal.Gen.frame m ρ

/-- The reference runs and leaves its arguments alone: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: nothing to preserve. -/
theorem preserves : Cert.preserves_Kernel_KernelIdeal := trivial

/-- Kernel and reference, from memories that agree on the arguments, both end at the layer `Cert.Layer.out` of the
    arguments: the kernel through the dense form, the reference edge by edge. -/
theorem algebraic : Cert.algebraic_KernelIdeal_ReferenceIdeal := by
  intro m ρ m' ρ' hpre hagree
  refine ⟨fun c => Cert.Layer.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.KernelLayer.run m ρ)
    obtain ⟨hx, hv, hrow, hcol⟩ := Cert.Domain.of_pre _ _ _ _ (hpre c)
    exact Cert.KernelLayer.dense_eq_layer _ _ _ _ hx hv hrow hcol
  · refine (θ_run Cert.ReferenceIdeal.defs _ _).mono (fun r h c => ⟨(h c).1.trans ?_, (h c).2⟩)
      (Cert.ReferenceIdeal.Value.run (F := Ideal) m' ρ')
    obtain ⟨hx, hv, hrow, hcol⟩ := Cert.Domain.of_pre _ _ _ _ (hpre c)
    refine (Cert.ReferenceIdeal.Read.val_main_v20_eq (F := Ideal) _ _ _ _).trans ?_
    rw [(hagree c).1, (hagree c).2.1, (hagree c).2.2.1, (hagree c).2.2.2]
    exact Cert.RefLayer.result_eq _ _ _ _ hrow hcol

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
